-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x384x384 : Shape := ⟨4, ![32, 3, 384, 384]⟩
abbrev S3840x768 : Shape := ⟨2, ![3840, 768]⟩
abbrev S768 : Shape := ⟨1, ![768]⟩
abbrev S_ : Shape := ⟨0, ![]⟩

class Facts : Prop where
  bcast_S_S32x3x384x384 : S_.BroadcastsInDim S32x3x384x384 (![] : Fin 0 → Fin S32x3x384x384.rank)
  reducesTo_S32x3x384x384_S_d0_1_2_3 : S32x3x384x384.ReducesTo [0, 1, 2, 3] S_
  h_S_ : 0 < S_.numel
  bcast_S_S3840x768 : S_.BroadcastsInDim S3840x768 (![] : Fin 0 → Fin S3840x768.rank)
  reducesTo_S3840x768_S_d0_1 : S3840x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S32x3x384x384 .f32) (main_arg1 : FVec F S3840x768 .f32) (main_arg2 : FVec F S768 .f32) (main_arg3 : FVec F S768 .f32) (main_arg4 : FVec F S768 .f32) : IVec S_ 1 :=
  let main_v0 : FVec F S32x3x384x384 .f32 := Host.absf main_arg0
  let main_cst : FVec F S_ .f32 := constant S_ .f32 0x7F800000#32
  let main_v1 : FVec F S32x3x384x384 .f32 := broadcastInDim S32x3x384x384 ![] bcast_S_S32x3x384x384 main_cst
  let main_v2 : IVec S32x3x384x384 1 := cmpf .olt main_v0 main_v1
  let main_c : IVec S_ 1 := constantI S_ 1 1#1
  let main_v3 : IVec S_ 1 := (fun x v => Host.reduce IntOp.andi x v reducesTo_S32x3x384x384_S_d0_1_2_3 h_S_) main_v2 main_c
  let main_v4 : FVec F S3840x768 .f32 := Host.absf main_arg1
  let main_cst_0 : FVec F S_ .f32 := constant S_ .f32 0x7F800000#32
  let main_v5 : FVec F S3840x768 .f32 := broadcastInDim S3840x768 ![] bcast_S_S3840x768 main_cst_0
  let main_v6 : IVec S3840x768 1 := cmpf .olt main_v4 main_v5
  let main_c_1 : IVec S_ 1 := constantI S_ 1 1#1
  let main_v7 : IVec S_ 1 := (fun x v => Host.reduce IntOp.andi x v reducesTo_S3840x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_v13 main_v16
-- ==== Kernel.lean ====
abbrev S32x3x384x384 : Shape := ⟨4, ![32, 3, 384, 384]⟩
abbrev S3840x768 : Shape := ⟨2, ![3840, 768]⟩
abbrev S768 : Shape := ⟨1, ![768]⟩
abbrev S_ : Shape := ⟨0, ![]⟩
abbrev S32x3x385x385 : Shape := ⟨4, ![32, 3, 385, 385]⟩
abbrev S32x15x384x384 : Shape := ⟨4, ![32, 15, 384, 384]⟩
abbrev S32x15x24x16x24x16 : Shape := ⟨6, ![32, 15, 24, 16, 24, 16]⟩
abbrev S32x24x24x15x16x16 : Shape := ⟨6, ![32, 24, 24, 15, 16, 16]⟩
abbrev S18432x3840 : Shape := ⟨2, ![18432, 3840]⟩
abbrev S1x768 : Shape := ⟨2, ![1, 768]⟩
abbrev S18432x768 : Shape := ⟨2, ![18432, 768]⟩
abbrev S384x3840 : Shape := ⟨2, ![384, 3840]⟩
abbrev S384x768 : Shape := ⟨2, ![384, 768]⟩
abbrev S384 : Shape := ⟨1, ![384]⟩
abbrev S384x1 : Shape := ⟨2, ![384, 1]⟩
abbrev S32x576x768 : Shape := ⟨3, ![32, 576, 768]⟩

abbrev nBuf : Space → Nat
  | .hbm => 30
  | .vmem => 8
  | .smem => 0
  | _ => 0

abbrev bufTy : (tb : Table) → Fin (tcTables nBuf tb) → BufTy
  | .hbm, ⟨0, _⟩ => ⟨S32x3x384x384, .f32⟩
  | .hbm, ⟨1, _⟩ => ⟨S3840x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S_, .i32⟩
  | .hbm, ⟨6, _⟩ => ⟨S_, .f32⟩
  | .hbm, ⟨7, _⟩ => ⟨S32x3x385x385, .f32⟩
  | .hbm, ⟨8, _⟩ => ⟨S32x3x384x384, .f32⟩
  | .hbm, ⟨9, _⟩ => ⟨S_, .i32⟩
  | .hbm, ⟨10, _⟩ => ⟨S_, .f32⟩
  | .hbm, ⟨11, _⟩ => ⟨S32x3x385x385, .f32⟩
  | .hbm, ⟨12, _⟩ => ⟨S32x3x384x384, .f32⟩
  | .hbm, ⟨13, _⟩ => ⟨S_, .i32⟩
  | .hbm, ⟨14, _⟩ => ⟨S_, .f32⟩
  | .hbm, ⟨15, _⟩ => ⟨S32x3x385x385, .f32⟩
  | .hbm, ⟨16, _⟩ => ⟨S32x3x384x384, .f32⟩
  | .hbm, ⟨17, _⟩ => ⟨S_, .i32⟩
  | .hbm, ⟨18, _⟩ => ⟨S_, .f32⟩
  | .hbm, ⟨19, _⟩ => ⟨S32x3x385x385, .f32⟩
  | .hbm, ⟨20, _⟩ => ⟨S32x3x384x384, .f32⟩
  | .hbm, ⟨21, _⟩ => ⟨S32x15x384x384, .f32⟩
  | .hbm, ⟨22, _⟩ => ⟨S32x15x24x16x24x16, .f32⟩
  | .hbm, ⟨23, _⟩ => ⟨S32x24x24x15x16x16, .f32⟩
  | .hbm, ⟨24, _⟩ => ⟨S18432x3840, .f32⟩
  | .hbm, ⟨25, _⟩ => ⟨S1x768, .f32⟩
  | .hbm, ⟨26, _⟩ => ⟨S1x768, .f32⟩
  | .hbm, ⟨27, _⟩ => ⟨S1x768, .f32⟩
  | .hbm, ⟨28, _⟩ => ⟨S18432x768, .f32⟩
  | .hbm, ⟨29, _⟩ => ⟨S32x576x768, .f32⟩
  | .local _ .vmem, ⟨0, _⟩ => ⟨S384x3840, .f32⟩
  | .local _ .vmem, ⟨1, _⟩ => ⟨S384x3840, .f32⟩
  | .local _ .vmem, ⟨2, _⟩ => ⟨S3840x768, .f32⟩
  | .local _ .vmem, ⟨3, _⟩ => ⟨S1x768, .f32⟩
  | .local _ .vmem, ⟨4, _⟩ => ⟨S1x768, .f32⟩
  | .local _ .vmem, ⟨5, _⟩ => ⟨S1x768, .f32⟩
  | .local _ .vmem, ⟨6, _⟩ => ⟨S384x768, .f32⟩
  | .local _ .vmem, ⟨7, _⟩ => ⟨S384x768, .f32⟩
  | _, _ => ⟨S32x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_call3_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x3840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S32x3x384x384_S32x3x385x385_000_000_010_010 : S32x3x384x384.Pads (![0, 0, 0, 0] : Fin 4 → Nat) ![0, 0, 1, 1] ![0, 0, 0, 0] S32x3x385x385
  h_S_ : 0 < S_.numel
  slices_S32x3x385x385_S32x3x384x384_0_0_1_1 : S32x3x385x385.Slices ![0, 0, 1, 1] S32x3x384x384
  pads_S32x3x384x384_S32x3x385x385_000_000_010_100 : S32x3x384x384.Pads (![0, 0, 0, 1] : Fin 4 → Nat) ![0, 0, 1, 0] ![0, 0, 0, 0] S32x3x385x385
  slices_S32x3x385x385_S32x3x384x384_0_0_1_0 : S32x3x385x385.Slices ![0, 0, 1, 0] S32x3x384x384
  pads_S32x3x384x384_S32x3x385x385_000_000_100_010 : S32x3x384x384.Pads (![0, 0, 1, 0] : Fin 4 → Nat) ![0, 0, 0, 1] ![0, 0, 0, 0] S32x3x385x385
  slices_S32x3x385x385_S32x3x384x384_0_0_0_1 : S32x3x385x385.Slices ![0, 0, 0, 1] S32x3x384x384
  pads_S32x3x384x384_S32x3x385x385_000_000_100_100 : S32x3x384x384.Pads (![0, 0, 1, 1] : Fin 4 → Nat) ![0, 0, 0, 0] ![0, 0, 0, 0] S32x3x385x385
  slices_S32x3x385x385_S32x3x384x384_0_0_0_0 : S32x3x385x385.Slices ![0, 0, 0, 0] S32x3x384x384
  concatenates_S32x3x384x384_S32x3x384x384_S32x3x384x384_S32x3x384x384_S32x3x384x384_S32x15x384x384_d1 : Shape.Concatenates [S32x3x384x384, S32x3x384x384, S32x3x384x384, S32x3x384x384, S32x3x384x384] S32x15x384x384 1
  shapeCasts_S32x15x384x384_S32x15x24x16x24x16 : S32x15x384x384.ShapeCasts S32x15x24x16x24x16
  transposes_S32x15x24x16x24x16_S32x24x24x15x16x16_0_2_4_1_3_5 : S32x15x24x16x24x16.Transposes [0, 2, 4, 1, 3, 5] S32x24x24x15x16x16
  shapeCasts_S32x24x24x15x16x16_S18432x3840 : S32x24x24x15x16x16.ShapeCasts S18432x3840
  shapeCasts_S768_S1x768 : S768.ShapeCasts S1x768
  inb_S384x3840_S384x3840_0_0 : ∀ a, (![0, 0] : Fin 2 → Nat) a + S384x3840.size a ≤ S384x3840.size a
  h_S384x3840 : 0 < S384x3840.numel
  shapeCasts_S384x3840_S384x3840 : S384x3840.ShapeCasts S384x3840
  bitsLt_bf16_f32 : FTy.bits .bf16 < FTy.bits .f32
  inb_S3840x768_S3840x768_0_0 : ∀ a, (![0, 0] : Fin 2 → Nat) a + S3840x768.size a ≤ S3840x768.size a
  h_S3840x768 : 0 < S3840x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S384x768 : S1x768.Broadcasts S384x768
  reduces_S384x768_S384 : S384x768.Reduces [1] S384
  shapeCasts_S384_S384x1 : S384.ShapeCasts S384x1
  broadcasts_S384x1_S384x768 : S384x1.Broadcasts S384x768
  inb_S384x768_S384x768_0_0 : ∀ a, (![0, 0] : Fin 2 → Nat) a + S384x768.size a ≤ S384x768.size a
  h_S384x768 : 0 < S384x768.numel
  shapeCasts_S18432x768_S32x576x768 : S18432x768.ShapeCasts S32x576x768
  dot_S384x3840_S3840x768_S384x768_1_0_0_1_n_n_wf : DotDims.WF S384x3840 S3840x768 S384x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x3840.size a ≤ S18432x3840.size a
  hwx0_0 : ∀ i : grid0.Coords, EltTy.bits .f32 = 32 ∨ (Rect.block (s := S18432x3840) S384x3840.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3840x768.size a ≤ S3840x768.size a
  hwx0_1 : ∀ i : grid0.Coords, EltTy.bits .f32 = 32 ∨ (Rect.block (s := S3840x768) S3840x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S384x768.size a ≤ S18432x768.size a
  hwx0_5 : ∀ i : grid0.Coords, EltTy.bits .f32 = 32 ∨ (Rect.block (s := S18432x768) S384x768.size (cc0_transform_5 i) (hinb0_5 i)).WholeWords (EltTy.packing .f32)

variable [Facts₀]

def dot_S384x3840_S3840x768_S384x768_1_0_0_1_n_n : DotDims S384x3840 S3840x768 S384x768 where
  lhsContracting := [1]
  rhsContracting := [0]
  lhsNonContracting := [0]
  rhsNonContracting := [1]
  lhsBatch := []
  rhsBatch := []
  wf := dot_S384x3840_S3840x768_S384x768_1_0_0_1_n_n_wf

abbrev win0_0 : Pipeline.Window sig grid0 :=
  Pipeline.Window.ofSpec (Memref.whole main_v11) S384x3840.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3840x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S384x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x3x384x384 : Shape := ⟨4, ![32, 3, 384, 384]⟩
abbrev S3840x768 : Shape := ⟨2, ![3840, 768]⟩
abbrev S768 : Shape := ⟨1, ![768]⟩
abbrev S_ : Shape := ⟨0, ![]⟩
abbrev S32x3x385x385 : Shape := ⟨4, ![32, 3, 385, 385]⟩
abbrev S32x15x384x384 : Shape := ⟨4, ![32, 15, 384, 384]⟩
abbrev S32x15x24x16x24x16 : Shape := ⟨6, ![32, 15, 24, 16, 24, 16]⟩
abbrev S32x24x24x15x16x16 : Shape := ⟨6, ![32, 24, 24, 15, 16, 16]⟩
abbrev S32x576x3840 : Shape := ⟨3, ![32, 576, 3840]⟩
abbrev S32x576x768 : Shape := ⟨3, ![32, 576, 768]⟩
abbrev S1x1x768 : Shape := ⟨3, ![1, 1, 768]⟩
abbrev S32x576 : Shape := ⟨2, ![32, 576]⟩
abbrev S32x576x1 : Shape := ⟨3, ![32, 576, 1]⟩

abbrev nBuf : Space → Nat
  | .hbm => 58
  | .vmem => 0
  | .smem => 0
  | _ => 0

abbrev bufTy : (tb : Table) → Fin (tcTables nBuf tb) → BufTy
  | .hbm, ⟨0, _⟩ => ⟨S32x3x384x384, .f32⟩
  | .hbm, ⟨1, _⟩ => ⟨S3840x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S_, .i32⟩
  | .hbm, ⟨6, _⟩ => ⟨S_, .f32⟩
  | .hbm, ⟨7, _⟩ => ⟨S32x3x385x385, .f32⟩
  | .hbm, ⟨8, _⟩ => ⟨S32x3x384x384, .f32⟩
  | .hbm, ⟨9, _⟩ => ⟨S_, .i32⟩
  | .hbm, ⟨10, _⟩ => ⟨S_, .f32⟩
  | .hbm, ⟨11, _⟩ => ⟨S32x3x385x385, .f32⟩
  | .hbm, ⟨12, _⟩ => ⟨S32x3x384x384, .f32⟩
  | .hbm, ⟨13, _⟩ => ⟨S_, .i32⟩
  | .hbm, ⟨14, _⟩ => ⟨S_, .f32⟩
  | .hbm, ⟨15, _⟩ => ⟨S32x3x385x385, .f32⟩
  | .hbm, ⟨16, _⟩ => ⟨S32x3x384x384, .f32⟩
  | .hbm, ⟨17, _⟩ => ⟨S_, .i32⟩
  | .hbm, ⟨18, _⟩ => ⟨S_, .f32⟩
  | .hbm, ⟨19, _⟩ => ⟨S32x3x385x385, .f32⟩
  | .hbm, ⟨20, _⟩ => ⟨S32x3x384x384, .f32⟩
  | .hbm, ⟨21, _⟩ => ⟨S32x15x384x384, .f32⟩
  | .hbm, ⟨22, _⟩ => ⟨S32x15x24x16x24x16, .f32⟩
  | .hbm, ⟨23, _⟩ => ⟨S32x24x24x15x16x16, .f32⟩
  | .hbm, ⟨24, _⟩ => ⟨S32x576x3840, .f32⟩
  | .hbm, ⟨25, _⟩ => ⟨S32x576x768, .f32⟩
  | .hbm, ⟨26, _⟩ => ⟨S1x1x768, .f32⟩
  | .hbm, ⟨27, _⟩ => ⟨S32x576x768, .f32⟩
  | .hbm, ⟨28, _⟩ => ⟨S32x576x768, .f32⟩
  | .hbm, ⟨29, _⟩ => ⟨S_, .f32⟩
  | .hbm, ⟨30, _⟩ => ⟨S32x576, .f32⟩
  | .hbm, ⟨31, _⟩ => ⟨S32x576x1, .f32⟩
  | .hbm, ⟨32, _⟩ => ⟨S_, .f32⟩
  | .hbm, ⟨33, _⟩ => ⟨S32x576x1, .f32⟩
  | .hbm, ⟨34, _⟩ => ⟨S32x576x1, .f32⟩
  | .hbm, ⟨35, _⟩ => ⟨S32x576x768, .f32⟩
  | .hbm, ⟨36, _⟩ => ⟨S32x576x768, .f32⟩
  | .hbm, ⟨37, _⟩ => ⟨S32x576x768, .f32⟩
  | .hbm, ⟨38, _⟩ => ⟨S_, .f32⟩
  | .hbm, ⟨39, _⟩ => ⟨S32x576, .f32⟩
  | .hbm, ⟨40, _⟩ => ⟨S32x576x1, .f32⟩
  | .hbm, ⟨41, _⟩ => ⟨S_, .f32⟩
  | .hbm, ⟨42, _⟩ => ⟨S32x576x1, .f32⟩
  | .hbm, ⟨43, _⟩ => ⟨S32x576x1, .f32⟩
  | .hbm, ⟨44, _⟩ => ⟨S32x576x768, .f32⟩
  | .hbm, ⟨45, _⟩ => ⟨S32x576x768, .f32⟩
  | .hbm, ⟨46, _⟩ => ⟨S_, .f32⟩
  | .hbm, ⟨47, _⟩ => ⟨S32x576x1, .f32⟩
  | .hbm, ⟨48, _⟩ => ⟨S32x576x1, .f32⟩
  | .hbm, ⟨49, _⟩ => ⟨S32x576x1, .f32⟩
  | .hbm, ⟨50, _⟩ => ⟨S32x576x768, .f32⟩
  | .hbm, ⟨51, _⟩ => ⟨S32x576x768, .f32⟩
  | .hbm, ⟨52, _⟩ => ⟨S1x1x768, .f32⟩
  | .hbm, ⟨53, _⟩ => ⟨S32x576x768, .f32⟩
  | .hbm, ⟨54, _⟩ => ⟨S32x576x768, .f32⟩
  | .hbm, ⟨55, _⟩ => ⟨S1x1x768, .f32⟩
  | .hbm, ⟨56, _⟩ => ⟨S32x576x768, .f32⟩
  | .hbm, ⟨57, _⟩ => ⟨S32x576x768, .f32⟩
  | _, _ => ⟨S32x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_call3_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  pads_S32x3x384x384_S32x3x385x385_000_000_010_010 : S32x3x384x384.Pads (![0, 0, 0, 0] : Fin 4 → Nat) ![0, 0, 1, 1] ![0, 0, 0, 0] S32x3x385x385
  h_S_ : 0 < S_.numel
  slices_S32x3x385x385_S32x3x384x384_0_0_1_1 : S32x3x385x385.Slices ![0, 0, 1, 1] S32x3x384x384
  pads_S32x3x384x384_S32x3x385x385_000_000_010_100 : S32x3x384x384.Pads (![0, 0, 0, 1] : Fin 4 → Nat) ![0, 0, 1, 0] ![0, 0, 0, 0] S32x3x385x385
  slices_S32x3x385x385_S32x3x384x384_0_0_1_0 : S32x3x385x385.Slices ![0, 0, 1, 0] S32x3x384x384
  pads_S32x3x384x384_S32x3x385x385_000_000_100_010 : S32x3x384x384.Pads (![0, 0, 1, 0] : Fin 4 → Nat) ![0, 0, 0, 1] ![0, 0, 0, 0] S32x3x385x385
  slices_S32x3x385x385_S32x3x384x384_0_0_0_1 : S32x3x385x385.Slices ![0, 0, 0, 1] S32x3x384x384
  pads_S32x3x384x384_S32x3x385x385_000_000_100_100 : S32x3x384x384.Pads (![0, 0, 1, 1] : Fin 4 → Nat) ![0, 0, 0, 0] ![0, 0, 0, 0] S32x3x385x385
  slices_S32x3x385x385_S32x3x384x384_0_0_0_0 : S32x3x385x385.Slices ![0, 0, 0, 0] S32x3x384x384
  concatenates_S32x3x384x384_S32x3x384x384_S32x3x384x384_S32x3x384x384_S32x3x384x384_S32x15x384x384_d1 : Shape.Concatenates [S32x3x384x384, S32x3x384x384, S32x3x384x384, S32x3x384x384, S32x3x384x384] S32x15x384x384 1
  shapeCasts_S32x15x384x384_S32x15x24x16x24x16 : S32x15x384x384.ShapeCasts S32x15x24x16x24x16
  transposes_S32x15x24x16x24x16_S32x24x24x15x16x16_0_2_4_1_3_5 : S32x15x24x16x24x16.Transposes [0, 2, 4, 1, 3, 5] S32x24x24x15x16x16
  shapeCasts_S32x24x24x15x16x16_S32x576x3840 : S32x24x24x15x16x16.ShapeCasts S32x576x3840
  bcast_S768_S1x1x768_2 : S768.BroadcastsInDim S1x1x768 (![2] : Fin 1 → Fin S1x1x768.rank)
  bcast_S1x1x768_S32x576x768_0_1_2 : S1x1x768.BroadcastsInDim S32x576x768 (![0, 1, 2] : Fin 3 → Fin S32x576x768.rank)
  reducesTo_S32x576x768_S32x576_d2 : S32x576x768.ReducesTo [2] S32x576
  bcast_S32x576_S32x576x1_0_1 : S32x576.BroadcastsInDim S32x576x1 (![0, 1] : Fin 2 → Fin S32x576x1.rank)
  bcast_S_S32x576x1 : S_.BroadcastsInDim S32x576x1 (![] : Fin 0 → Fin S32x576x1.rank)
  bcast_S32x576x1_S32x576x768_0_1_2 : S32x576x1.BroadcastsInDim S32x576x768 (![0, 1, 2] : Fin 3 → Fin S32x576x768.rank)
  dot_S32x576x3840_S3840x768_S32x576x768_2_0_01_1_n_n_wf : DotDims.WF S32x576x3840 S3840x768 S32x576x768 [2] [0] [0, 1] [1] [] []

variable [Facts₀]

def dot_S32x576x3840_S3840x768_S32x576x768_2_0_01_1_n_n : DotDims S32x576x3840 S3840x768 S32x576x768 where
  lhsContracting := [2]
  rhsContracting := [0]
  lhsNonContracting := [0, 1]
  rhsNonContracting := [1]
  lhsBatch := []
  rhsBatch := []
  wf := dot_S32x576x3840_S3840x768_S32x576x768_2_0_01_1_n_n_wf

class Facts : Prop extends Facts₀ where

variable [Facts]
-- ==== Proof.KI.Entry.lean ====
/-
  The host side of the idealized kernel program's @main: nine stretches of layout operations
  (four zero-padded diagonal shifts of the image, their channel-wise concatenation with the image,
  the cut into 16×16 patches and the three parameter rows) run before the one fused
  projection/LayerNorm region, and one reshape after it.  Here: the buffer contents the region is
  entered at, @main reduced to "region, then the closing reshape" at those contents, the side
  conditions the closing stretch owes the pipeline (it touches unscoped buffers only, allocates
  nothing, writes no array a window stages), and the five argument arrays followed through both
  stretches: no host line writes an argument.
-/
import proofs.«165786_j11519102287954_1_alg».proof.Proof.Gen.KernelIdeal.Launch
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The stretches -/

/-- The host lines before the region, stretch by stretch, in program order. -/
abbrev lead : List (List (HloOp τ sig (Elt F))) :=
  [hostOps0, hostOps0_1, hostOps0_2, hostOps0_3, hostOps0_4, hostOps0_5, hostOps0_6, hostOps0_7, hostOps0_8]

/-- The host lines after it: the reshape of the projected rows into batches. -/
abbrev close : List (List (HloOp τ sig (Elt F))) := [hostOps1]

/-- Every leading line reads and writes TensorCore buffers only. -/
theorem lead_sub : (lead (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub⟩

/-- No leading line allocates. -/
theorem lead_fresh : (lead (F := F)).Forall fun ops => ops.Forall fun op => op.fresh = ∅ := by
  simp only [List.Forall]
  refine ⟨?_, ?_, ?_, ?_, ?_, ?_, ?_, ?_, ?_⟩ <;> repeat' constructor

/-- Nor does the closing reshape. -/
theorem close_fresh : (hostOps1 : List (HloOp τ sig (Elt F))).Forall fun op => op.fresh = ∅ := by
  simp only [List.Forall]; rfl

/-! ## The contents at the region's entry -/

/-- Core `c`'s buffers when the region is entered: the launch memory run through the leading lines. -/
abbrev entry (c : Dev nD) : Valuation τ sig (Elt F) := StableHlo.after (lead (F := F)).flatten (fun b => m (c, b))

/-- The same, read at a TensorCore reference. -/
abbrev atEntry (c : Dev nD) (b : Ref sig .tc) : Buf (Elt F) ((c : Thread nD τ).loc b) := entry m c (Proc.devRef .tc b)

/-- @main is the leading lines, the region, the closing reshape: from the launch memory it reduces to the region
    continued by the reshape, the unscoped buffers at `atEntry`. -/
theorem main_around (𝒱₀ : Variants) :
    Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main lead close lead_sub lead_fresh main_chain

/-! ## What the closing reshape owes the pipeline -/

/-- It touches only unscoped TensorCore buffers, each of which is an array of the pipeline or bypasses it. -/
theorem close_sub : ∀ ops ∈ (close (F := F)), ∀ op ∈ ops, op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

/-- It allocates nothing. -/
theorem close_alloc : ∀ ops ∈ (close (F := F)), ∀ op ∈ ops, op.fresh = ∅ := by
  intro ops hops op hop
  obtain rfl : ops = hostOps1 := by simpa using hops
  exact (List.forall_iff_forall_mem.mp close_fresh) op hop

/-- It writes its own result buffer, which no window stages. -/
theorem close_keeps : ∀ ops ∈ (close (F := F)), ∀ op ∈ ops, ∀ w, Proc.devRef .tc (Pipeline.arrRef spec0 w) ∉ op.writes := by
  intro ops hops op hop
  obtain rfl : ops = hostOps1 := by simpa using hops
  obtain rfl : op = StableHlo.reshape main_v15 main_v16 rfl shapeCasts_S18432x768_S32x576x768 := by simpa using hop
  intro w
  rw [StableHlo.reshape_writes, Finset.mem_singleton]
  fin_cases w <;> exact StableHlo.devRef_ne_of_ne (by decide)

/-! ## The argument arrays through the host lines -/

/-- A buffer no leading line writes is entered as launched. -/
theorem entry_of_unwritten (c : Dev nD) (b : Ref sig .tc)
    (h : ∀ op ∈ (lead (F := F)).flatten, Proc.devRef .tc b ∉ op.writes) :
    atEntry m c b = m ((c : Thread nD τ).loc b) :=
  StableHlo.after_of_forall_not_mem (b := Proc.devRef .tc b) _ _ h

/-- The result buffers of the leading lines, in program order: what they write, and nothing else. -/
theorem lead_writes (b : Ref sig .tc)
    (hb : b ∉ ([main_c, main_call0_v0, main_v0, main_v1, main_c_0, main_call1_v0, main_v2, main_v3, main_c_1, main_call2_v0,
      main_v4, main_v5, main_c_2, main_call3_v0, main_v6, main_v7, main_v8, main_v9, main_v10, main_v11, main_v12, main_v13,
      main_v14] : List (Ref sig .tc))) :
    ∀ op ∈ (lead (F := F)).flatten, Proc.devRef .tc b ∉ op.writes := by
  simp only [List.mem_cons, List.not_mem_nil, or_false, not_or] at hb
  obtain ⟨h0, h1, h2, h3, h4, h5, h6, h7, h8, h9, h10, h11, h12, h13, h14, h15, h16, h17, h18, h19, h20, h21, h22⟩ := hb
  refine List.forall_iff_forall_mem.mp ?_
  simp only [lead, hostOps0, hostOps0_1, hostOps0_2, hostOps0_3, hostOps0_4, hostOps0_5, hostOps0_6, hostOps0_7, hostOps0_8,
    List.flatten_cons, List.flatten_nil, List.append_nil, List.cons_append, List.nil_append, List.Forall,
    StableHlo.nullary_writes, StableHlo.unary_writes, StableHlo.binary_writes, StableHlo.nary_writes, StableHlo.reshape_writes,
    Finset.mem_singleton]
  refine ⟨?_, ?_, ?_, ?_, ?_, ?_, ?_, ?_, ?_, ?_, ?_, ?_, ?_, ?_, ?_, ?_, ?_, ?_, ?_, ?_, ?_, ?_, ?_⟩ <;>
    exact StableHlo.devRef_ne_of_ne (by assumption)

theorem entry_arg0 (c : Dev nD) : atEntry m c main_arg0 = m ((c : Thread nD τ).loc main_arg0) :=
  entry_of_unwritten m c _ (lead_writes _ (by decide))
theorem entry_arg1 (c : Dev nD) : atEntry m c main_arg1 = m ((c : Thread nD τ).loc main_arg1) :=
  entry_of_unwritten m c _ (lead_writes _ (by decide))
theorem entry_arg2 (c : Dev nD) : atEntry m c main_arg2 = m ((c : Thread nD τ).loc main_arg2) :=
  entry_of_unwritten m c _ (lead_writes _ (by decide))
theorem entry_arg3 (c : Dev nD) : atEntry m c main_arg3 = m ((c : Thread nD τ).loc main_arg3) :=
  entry_of_unwritten m c _ (lead_writes _ (by decide))
theorem entry_arg4 (c : Dev nD) : atEntry m c main_arg4 = m ((c : Thread nD τ).loc main_arg4) :=
  entry_of_unwritten m c _ (lead_writes _ (by decide))

/-- After the closing reshape a buffer that is neither an array of the pipeline nor the reshape's result holds what it
    held at the region's entry, whatever the proof data say the arrays hold. -/
theorem exit_of_bypass (dats : (p : Fin 1) → (c : Dev nD) → Dat τ (Elt F) Unit ℕ (UR sig nD τ) ℕ (cfgs p) c) (c : Dev nD)
    (b : Ref sig .tc) (hne : b ≠ main_v16) (harr : ∀ w, Pipeline.arrRef spec0 w ≠ b) :
    Pipeline.afterTail₀ cfgs dats 0 (entry m) close c b = atEntry m c b := by
  unfold Pipeline.afterTail₀
  rw [StableHlo.after_of_forall_not_mem (b := Proc.devRef .tc b) _ _ (List.forall_iff_forall_mem.mp (by
      simp only [close, hostOps1, List.flatten_cons, List.flatten_nil, List.append_nil, List.Forall, StableHlo.reshape_writes,
        Finset.mem_singleton]
      exact StableHlo.devRef_ne_of_ne hne)),
    Pipeline.withArrays_of_ne _ c (entry m c) _ b harr]

end Cert.KernelIdeal.Hand

end
-- ==== Proof.KI.Body.lean ====
/-
  One grid step of the fused region.  The step's body loads a block of 384 patch rows, the whole weight
  matrix and the three parameter rows, computes on them, and stores the 384×768 result over its whole output
  buffer; it keeps nothing between steps.  So what a step leaves in the output buffer is the body's arithmetic
  applied to the five loaded blocks, and each input buffer is handed back as it was found.  Here: the blocks
  the pipeline hands the body at a step, read off the arrays as the region finds them; the body's run on
  arbitrary whole buffers; the proof data of the pipeline (what every staging buffer holds after every step);
  and the obligation the pipeline asks of the body at every step.
-/
import proofs.«165786_j11519102287954_1_alg».proof.Proof.KI.Entry
import proofs.«165786_j11519102287954_1_alg».proof.Proof.Gen.KernelIdeal.Skeleton
import proofs.«165786_j11519102287954_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at step `t`: the part of its array, as the region finds it, that the step's index map names. -/
def blk (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## The body on whole buffers -/

/-- The zero offsets of a whole-buffer access, however they are spelt. -/
theorem zero_off : (![0, 0] : Fin 2 → Nat) = fun _ => 0 := by
  funext a; match a with | ⟨0, _⟩ => rfl | ⟨1, _⟩ => rfl

set_option maxHeartbeats 1000000 in
/-- The body, run on whole buffers holding `x0 … x4` (the output buffer holding anything), reaches its continuation
    with the five inputs as they were and the output buffer at the body's arithmetic of them. -/
theorem body_runs (c : Dev nD) (E : Set ℕ) (i : grid0.Coords)
    (a1 : Memref sig .tc .vmem S384x3840 .f32) (h1 : a1.IsWhole) (a2 : Memref sig .tc .vmem S3840x768 .f32) (h2 : a2.IsWhole)
    (a3 : Memref sig .tc .vmem S1x768 .f32) (h3 : a3.IsWhole) (a4 : Memref sig .tc .vmem S1x768 .f32) (h4 : a4.IsWhole)
    (a5 : Memref sig .tc .vmem S1x768 .f32) (h5 : a5.IsWhole) (a6 : Memref sig .tc .vmem S384x768 .f32) (h6 : a6.IsWhole)
    (x0 : Vec F S384x3840 .f32) (x1 : Vec F S3840x768 .f32) (x2 x3 x4 : Vec F S1x768 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (k0_pay1 x0 x1 x2 x3 x4)) -∗ K ⟨⟩))
      ⊢ wp frame (wpE (defs₀ (F := F)) Variants.none c none) E (cc0__matmul_ln_kernel i a1 h1 a2 h2 a3 h3 a4 h4 a5 h5 a6 h6) K := by
  simp only [cc0__matmul_ln_kernel_eq_skeleton]; unfold cc0__matmul_ln_kernel_skel
  unfold owns
  iintro ⟨⟨%f0, %e0, H0⟩, ⟨%f1, %e1, H1⟩, ⟨%f2, %e2, H2⟩, ⟨%f3, %e3, H3⟩, ⟨%f4, %e4, H4⟩, ⟨%d, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero zero_off inb_S384x768_S384x768_0_0 y⟩),
    View.canon_unit_zero zero_off]
  simp only [View.readAt_eq_ld, View.ld_unit_zero (S := S384x3840) zero_off, View.ld_unit_zero (S := S3840x768) zero_off,
    View.ld_unit_zero (S := S1x768) zero_off]

/-! ## The proof data -/

/-- What every staging buffer of the pipeline on core `c` holds after the body at every step: an input's buffer its
    block, the output's buffer the body's arithmetic of the five input blocks.  The arrays are those the region is
    entered at; the body uses nothing beyond its buffers, shares are whole and nothing is owed. -/
def dats (_ : Fin 1) (c : Dev nD) : Dat τ (Elt F) Unit ℕ (UR sig nD τ) ℕ cfg0 c where
  A w := atEntry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => k0_pay1 (blk m c 0 t) (blk m c 1 t) (blk m c 2 t) (blk m c 3 t) (blk m c 4 t)
  Φ _ := Pipeline.ΦA spec0 c
  q _ := fullShare
  owed _ := 0

/-- The data's arrays are the entry contents (a projection: the entry contents are never opened to see it). -/
theorem arrays_at (c : Dev nD) (w : Fin cfg0.W) : (dats m 0 c).A w = atEntry m c (Pipeline.arrRef spec0 w) := by
  dsimp only [dats]

theorem left0 (c : Dev nD) (t : Fin cfg0.N) : (dats m 0 c).after 0 t = blk m c 0 t := by dsimp only [dats]
theorem left1 (c : Dev nD) (t : Fin cfg0.N) : (dats m 0 c).after 1 t = blk m c 1 t := by dsimp only [dats]
theorem left2 (c : Dev nD) (t : Fin cfg0.N) : (dats m 0 c).after 2 t = blk m c 2 t := by dsimp only [dats]
theorem left3 (c : Dev nD) (t : Fin cfg0.N) : (dats m 0 c).after 3 t = blk m c 3 t := by dsimp only [dats]
theorem left4 (c : Dev nD) (t : Fin cfg0.N) : (dats m 0 c).after 4 t = blk m c 4 t := by dsimp only [dats]
theorem left5 (c : Dev nD) (t : Fin cfg0.N) :
    (dats m 0 c).after 5 t = k0_pay1 (blk m c 0 t) (blk m c 1 t) (blk m c 2 t) (blk m c 3 t) (blk m c 4 t) := by dsimp only [dats]

/-! ## What the body finds -/

/-- An input buffer holds its window's block when the body runs, whether the step fetched it or an earlier one did:
    the patch rows are fetched at every step, the weights and the parameter rows once, and the body leaves them be. -/
theorem found0 (c : Dev nD) (t : Fin cfg0.N) (d) : (dats m 0 c).before 0 t d = blk m c 0 t :=
  ((dats m 0 c).before_in_eq_fetched 0 rfl (fun _ => rfl) (fun _ _ _ => rfl)
    (fun t => by rw [left0]; unfold Dat.blockOf blk; rw [arrays_at]; try rfl) t d).trans
    (by unfold Dat.fetched Dat.blockOf blk; rw [arrays_at]; try rfl)
theorem found1 (c : Dev nD) (t : Fin cfg0.N) (d) : (dats m 0 c).before 1 t d = blk m c 1 t :=
  ((dats m 0 c).before_in_eq_fetched 1 rfl (fun _ => rfl) (fun _ _ _ => rfl)
    (fun t => by rw [left1]; unfold Dat.blockOf blk; rw [arrays_at]; try rfl) t d).trans
    (by unfold Dat.fetched Dat.blockOf blk; rw [arrays_at]; try rfl)
theorem found2 (c : Dev nD) (t : Fin cfg0.N) (d) : (dats m 0 c).before 2 t d = blk m c 2 t :=
  ((dats m 0 c).before_in_eq_fetched 2 rfl (fun _ => rfl) (fun _ _ _ => rfl)
    (fun t => by rw [left2]; unfold Dat.blockOf blk; rw [arrays_at]; try rfl) t d).trans
    (by unfold Dat.fetched Dat.blockOf blk; rw [arrays_at]; try rfl)
theorem found3 (c : Dev nD) (t : Fin cfg0.N) (d) : (dats m 0 c).before 3 t d = blk m c 3 t :=
  ((dats m 0 c).before_in_eq_fetched 3 rfl (fun _ => rfl) (fun _ _ _ => rfl)
    (fun t => by rw [left3]; unfold Dat.blockOf blk; rw [arrays_at]; try rfl) t d).trans
    (by unfold Dat.fetched Dat.blockOf blk; rw [arrays_at]; try rfl)
theorem found4 (c : Dev nD) (t : Fin cfg0.N) (d) : (dats m 0 c).before 4 t d = blk m c 4 t :=
  ((dats m 0 c).before_in_eq_fetched 4 rfl (fun _ => rfl) (fun _ _ _ => rfl)
    (fun t => by rw [left4]; unfold Dat.blockOf blk; rw [arrays_at]; try rfl) t d).trans
    (by unfold Dat.fetched Dat.blockOf blk; rw [arrays_at]; try rfl)

/-! ## The obligation at a step -/

/-- The body at step `t`, called as the pipeline calls it: handed the invariant, the core's dues and the six current
    staging buffers (the inputs at their blocks, the output at whatever it holds), it gives the first two back untouched
    and leaves every buffer at what the proof data say. -/
theorem step (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t)
          ∗ owns (c : Thread nD τ) (st0_3 t) fullShare ((dats m 0 c).after 3 t)
          ∗ owns (c : Thread nD τ) (st0_4 t) fullShare ((dats m 0 c).after 4 t)
          ∗ owns (c : Thread nD τ) (st0_5 t) fullShare ((dats m 0 c).after 5 t))) := by
  unfold bodyAt0
  simp only [found0, found1, found2, found3, found4]
  rw [show (dats m 0 c).Φ t.succ = (dats m 0 c).Φ t.castSucc from rfl,
    show (dats m 0 c).owesAt () t.succ = (dats m 0 c).owesAt () t.castSucc from rfl,
    left0, left1, left2, left3, left4, left5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (blk m c 0 t) (blk m c 1 t) (blk m c 2 t) (blk m c 3 t) (blk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every step. -/
theorem obligation (c : Dev nD) : BodyObligation (dats (F := F) m 0 c) (defs₀ (F := F)) Variants.none () Set.univ := fun t => by
  rw [bigSep_W0, bigSep_W0]
  exact step m c t

end Cert.KernelIdeal.Hand

end
-- ==== Proof.KI.Run.lean ====
/-
  The run of the idealized kernel program and its frame.  The pipeline's launch theorem for a region between
  host lines takes the body's obligation at every step and the host side's facts, and gives: every fair execution of
  @main ends, nothing faulting, with every array a window stages at what the proof data compute for it and every other
  unscoped buffer at what the closing reshape leaves.  Read at the five argument arrays (the weight matrix is
  staged, as an input; the image and the three parameter vectors bypass the pipeline) this is the frame claim: no host
  line writes an argument and the pipeline only reads the weights.
-/
import proofs.«165786_j11519102287954_1_alg».proof.Proof.KI.Body
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

-- the launch theorem's implicit arguments are found by unifying its conclusion with the statement, which unfolds
-- plain definitions inside a metavariable's type
set_option backward.isDefEq.respectTransparency.types false in
/-- From any memory, with zero counters: every fair execution of @main ends without a fault, the staged arrays at the
    proof data's contents and every other unscoped buffer at what the closing reshape leaves. -/
theorem runs : θ_run defs (onTc (τ := τ) (main (F := F))) (s₀ m ρ)
    (Pipeline.FramePost cfgs (dats m) 0 (Pipeline.afterTail₀ cfgs (dats m) 0 (entry m) close)) :=
  Pipeline.θ_run_frame_around cfgs (dats m) (0 : Fin 1) launch0 defs₀ Variants.none m ρ main
    (hbody := fun c => (obligation m c).loose) (hshare := fun c => (dats m 0 c).share_full fun _ => rfl)
    (howed := fun _ _ => rfl) (V₀ := entry m) (opss := close) (hsub := close_sub) (hfresh := close_alloc) (hkeep := close_keeps)
    (hmain := main_around m Variants.none) (hA := arrays_at m) (hΦ := fun _ _ => rfl)

/-- A buffer that bypasses the pipeline and that no host line writes ends as launched. -/
theorem bypass_kept {r : PUnit × MemSt nD τ sig (Elt F)}
    (h : Pipeline.FramePost cfgs (dats m) 0 (Pipeline.afterTail₀ cfgs (dats m) 0 (entry m) close) r) (c : Dev nD) (b : Ref sig .tc)
    (hrest : b ∈ Pipeline.restRefs sig (cfgs 0).spec) (hne : b ≠ main_v16) (harr : ∀ w, Pipeline.arrRef spec0 w ≠ b)
    (hlead : atEntry m c b = m ((c : Thread nD τ).loc b)) :
    r.2.mem ((c.tc : Thread nD τ).loc b) = m ((c.tc : Thread nD τ).loc b) :=
  (((h c).2 b hrest).trans (exit_of_bypass m (dats m) c b hne harr)).trans hlead

/-- THE FRAME of the idealized kernel program, at any float instance: it runs to the end and its five arguments end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨bypass_kept m h c main_arg0 (Pipeline.mem_restRefs_of main_arg0 (by decide) (by decide)) (by decide) (by decide) (entry_arg0 m c),
     ((h c).1 1).trans ((((dats m 0 c).arrAt_in 1 rfl _).trans (arrays_at m c 1)).trans (entry_arg1 m c)),
     bypass_kept m h c main_arg2 (Pipeline.mem_restRefs_of main_arg2 (by decide) (by decide)) (by decide) (by decide) (entry_arg2 m c),
     bypass_kept m h c main_arg3 (Pipeline.mem_restRefs_of main_arg3 (by decide) (by decide)) (by decide) (by decide) (entry_arg3 m c),
     bypass_kept m h c main_arg4 (Pipeline.mem_restRefs_of main_arg4 (by decide) (by decide)) (by decide) (by decide) (entry_arg4 m c)⟩)
    (runs m ρ)

end Cert.KernelIdeal.Hand

end
-- ==== Proof.KI.Blocks.lean ====
/-
  The blocks and the arrays.  The patch array is cut along its rows into 48 blocks of 384 rows, one per grid step;
  the result array likewise; the weight matrix and the three parameter rows are each one block, the same at every
  step.  Here: each block read at an element as an element of its array; the result array covered by the 48 row
  blocks; the arrays the region is entered at as the host lines build them (the patch array a reshape of the
  six-axis patch tensor, each parameter row a reshape of its vector); and the program's result as the closing reshape
  of the array the region wrote.
-/
import proofs.«165786_j11519102287954_1_alg».proof.Proof.KI.Run
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The index maps over the grid -/

/-- Step `t` names row block `t` of the patch array, -/
theorem rows_at : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- and row block `t` of the result array; -/
theorem out_at : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
/-- the weights and the parameter rows are block (0, 0) at every step. -/
theorem weights_at : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem bias_at : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem gain_at : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem offset_at : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-! ## A block's element in its array -/

/-- Row `p` of step `t`'s block of an array of 18432 rows of 3840 is the array's row `384 t + p`. -/
theorem rows_read (t : Fin cfg0.N) (X : S18432x3840.Idx → Elt F .f32) (p : Fin 384) (k : Fin 3840) (r : Fin 18432)
    (hr : r.val = t.val * 384 + p.val) : ((cfg0.win 0).blk t).view.read (Elt F) X (ix2 p k) = X (ix2 r k) := by
  rw [View.read_apply]
  show X (((cfg0.win 0).blk t).view.emb (ix2 p k)) = X (ix2 r k)
  refine congrArg X (funext fun a => Fin.ext ?_)
  match a with
  | ⟨0, _⟩ => show win0_0.index t 0 * 384 + 1 * p.val = r.val; rw [(rows_at t).1, hr]; omega
  | ⟨1, _⟩ => show win0_0.index t 1 * 3840 + 1 * k.val = k.val; rw [(rows_at t).2]; omega

/-- The one block of the weight matrix is the matrix. -/
theorem weights_read (t : Fin cfg0.N) (X : S3840x768.Idx → Elt F .f32) (k : Fin 3840) (e : Fin 768) :
    ((cfg0.win 1).blk t).view.read (Elt F) X (ix2 k e) = X (ix2 k e) := by
  rw [View.read_apply]
  show X (((cfg0.win 1).blk t).view.emb (ix2 k e)) = X (ix2 k e)
  refine congrArg X (funext fun a => Fin.ext ?_)
  match a with
  | ⟨0, _⟩ => show win0_1.index t 0 * 3840 + 1 * k.val = k.val; rw [(weights_at t).1]; omega
  | ⟨1, _⟩ => show win0_1.index t 1 * 768 + 1 * e.val = e.val; rw [(weights_at t).2]; omega

/-- The one block of a parameter row is the row. -/
theorem bias_read (t : Fin cfg0.N) (X : S1x768.Idx → Elt F .f32) (e : Fin 768) :
    ((cfg0.win 2).blk t).view.read (Elt F) X (ix2 (0 : Fin 1) e) = X (ix2 (0 : Fin 1) e) := by
  rw [View.read_apply]
  show X (((cfg0.win 2).blk t).view.emb (ix2 (0 : Fin 1) e)) = X (ix2 (0 : Fin 1) e)
  refine congrArg X (funext fun a => Fin.ext ?_)
  match a with
  | ⟨0, _⟩ => show win0_2.index t 0 * 1 + 1 * 0 = 0; rw [(bias_at t).1]
  | ⟨1, _⟩ => show win0_2.index t 1 * 768 + 1 * e.val = e.val; rw [(bias_at t).2]; omega
theorem gain_read (t : Fin cfg0.N) (X : S1x768.Idx → Elt F .f32) (e : Fin 768) :
    ((cfg0.win 3).blk t).view.read (Elt F) X (ix2 (0 : Fin 1) e) = X (ix2 (0 : Fin 1) e) := by
  rw [View.read_apply]
  show X (((cfg0.win 3).blk t).view.emb (ix2 (0 : Fin 1) e)) = X (ix2 (0 : Fin 1) e)
  refine congrArg X (funext fun a => Fin.ext ?_)
  match a with
  | ⟨0, _⟩ => show win0_3.index t 0 * 1 + 1 * 0 = 0; rw [(gain_at t).1]
  | ⟨1, _⟩ => show win0_3.index t 1 * 768 + 1 * e.val = e.val; rw [(gain_at t).2]; omega
theorem offset_read (t : Fin cfg0.N) (X : S1x768.Idx → Elt F .f32) (e : Fin 768) :
    ((cfg0.win 4).blk t).view.read (Elt F) X (ix2 (0 : Fin 1) e) = X (ix2 (0 : Fin 1) e) := by
  rw [View.read_apply]
  show X (((cfg0.win 4).blk t).view.emb (ix2 (0 : Fin 1) e)) = X (ix2 (0 : Fin 1) e)
  refine congrArg X (funext fun a => Fin.ext ?_)
  match a with
  | ⟨0, _⟩ => show win0_4.index t 0 * 1 + 1 * 0 = 0; rw [(offset_at t).1]
  | ⟨1, _⟩ => show win0_4.index t 1 * 768 + 1 * e.val = e.val; rw [(offset_at t).2]; omega

/-- The step's blocks, read off the arrays the region is entered at. -/
theorem patch_block (c : Dev nD) (t : Fin cfg0.N) (p : Fin 384) (k : Fin 3840) (r : Fin 18432) (hr : r.val = t.val * 384 + p.val) :
    (blk m c 0 t : Vec F S384x3840 .f32) (ix2 p k) = (atEntry m c main_v11 : S18432x3840.Idx → Elt F .f32) (ix2 r k) :=
  rows_read t (atEntry m c main_v11) p k r hr
theorem weight_block (c : Dev nD) (t : Fin cfg0.N) (k : Fin 3840) (e : Fin 768) :
    (blk m c 1 t : Vec F S3840x768 .f32) (ix2 k e) = (atEntry m c main_arg1 : S3840x768.Idx → Elt F .f32) (ix2 k e) :=
  weights_read t (atEntry m c main_arg1) k e
theorem bias_block (c : Dev nD) (t : Fin cfg0.N) (e : Fin 768) :
    (blk m c 2 t : Vec F S1x768 .f32) (ix2 (0 : Fin 1) e) = (atEntry m c main_v12 : S1x768.Idx → Elt F .f32) (ix2 (0 : Fin 1) e) :=
  bias_read t (atEntry m c main_v12) e
theorem gain_block (c : Dev nD) (t : Fin cfg0.N) (e : Fin 768) :
    (blk m c 3 t : Vec F S1x768 .f32) (ix2 (0 : Fin 1) e) = (atEntry m c main_v13 : S1x768.Idx → Elt F .f32) (ix2 (0 : Fin 1) e) :=
  gain_read t (atEntry m c main_v13) e
theorem offset_block (c : Dev nD) (t : Fin cfg0.N) (e : Fin 768) :
    (blk m c 4 t : Vec F S1x768 .f32) (ix2 (0 : Fin 1) e) = (atEntry m c main_v14 : S1x768.Idx → Elt F .f32) (ix2 (0 : Fin 1) e) :=
  offset_read t (atEntry m c main_v14) e

/-! ## The result array is covered -/

/-- An element of the result array is under step `t`'s block exactly when each of its coordinates is within the block's
    extent on that axis. -/
theorem under_out_block (t : Fin cfg0.N) (i : S18432x768.Idx) :
    i ∈ ((cfg0.win 5).blk t).view.set ↔
      ∀ a : Fin 2, win0_5.index t a * S384x768.size a ≤ (i a).val ∧ (i a).val < win0_5.index t a * S384x768.size a + S384x768.size a := by
  show i ∈ ((View.whole main_v15).slice (win0_5.rect t)).set ↔ _
  rw [View.set_slice_whole, Rect.mem_set_unit]
  exact Iff.rfl

/-- Row `r` of the result array lies in the block of step `r / 384`, which is written back. -/
theorem out_covered (i : S18432x768.Idx) :
    ∃ t : Fin cfg0.N, (cfg0.win 5).flush t = true ∧ i ∈ ((cfg0.win 5).blk t).view.set := by
  have h0 : (i 0).val < 18432 := (i 0).isLt
  have h1 : (i 1).val < 768 := (i 1).isLt
  have hN : cfg0.N = 48 := N_0
  have ht : (i 0).val / 384 < cfg0.N := by rw [hN]; omega
  refine ⟨⟨(i 0).val / 384, ht⟩, flush0_5 _, ?_⟩
  rw [under_out_block]
  intro a
  obtain ⟨e0, e1⟩ := out_at ⟨(i 0).val / 384, ht⟩
  match a with
  | ⟨0, _⟩ =>
    show win0_5.index ⟨(i 0).val / 384, ht⟩ (0 : Fin 2) * 384 ≤ (i 0).val ∧ (i 0).val < win0_5.index ⟨(i 0).val / 384, ht⟩ (0 : Fin 2) * 384 + 384
    rw [e0]
    show (i 0).val / 384 * 384 ≤ (i 0).val ∧ (i 0).val < (i 0).val / 384 * 384 + 384
    omega
  | ⟨1, _⟩ =>
    show win0_5.index ⟨(i 0).val / 384, ht⟩ (1 : Fin 2) * 768 ≤ (i 1).val ∧ (i 1).val < win0_5.index ⟨(i 0).val / 384, ht⟩ (1 : Fin 2) * 768 + 768
    rw [e1]
    omega

/-! ## The arrays at the region's entry, as the host lines build them -/

/-- Opening the entry contents: the leading lines as one list. -/
theorem entry_open (c : Dev nD) (b : Ref sig .tc) :
    atEntry m c b = StableHlo.after
      ([ StableHlo.nullary main_c (constantI S_ 32 0#32) ] ++ hostOps0_1 ++ hostOps0_2 ++ hostOps0_3 ++ hostOps0_4 ++ hostOps0_5
        ++ hostOps0_6 ++ hostOps0_7 ++ hostOps0_8 : List (HloOp τ sig (Elt F))) (fun b => m (c, b)) (Proc.devRef .tc b) := by
  dsimp only [atEntry, entry]
  simp only [lead, hostOps0, List.flatten_cons, List.flatten_nil, List.append_nil, List.append_assoc]

/-- The patch array is the six-axis patch tensor laid out as 18432 rows of 3840. -/
theorem patches_entry (c : Dev nD) :
    (atEntry m c main_v11 : S18432x3840.Idx → Elt F .f32)
      = shapeCast S18432x3840 (atEntry m c main_v10 : S32x24x24x15x16x16.Idx → Elt F .f32) shapeCasts_S32x24x24x15x16x16_S18432x3840 := by
  rw [entry_open, entry_open]
  simp only [hostOps0_1, hostOps0_2, hostOps0_3, hostOps0_4, hostOps0_5, hostOps0_6, hostOps0_7, hostOps0_8, List.cons_append,
    List.nil_append]
  after_results
  rfl

/-- The bias, gain and offset rows are their vectors laid out as one row. -/
theorem bias_entry (c : Dev nD) :
    (atEntry m c main_v12 : S1x768.Idx → Elt F .f32)
      = shapeCast S1x768 (m ((c : Thread nD τ).loc main_arg2) : S768.Idx → Elt F .f32) shapeCasts_S768_S1x768 := by
  rw [entry_open]
  simp only [hostOps0_1, hostOps0_2, hostOps0_3, hostOps0_4, hostOps0_5, hostOps0_6, hostOps0_7, hostOps0_8, List.cons_append,
    List.nil_append]
  after_results
  rfl
theorem gain_entry (c : Dev nD) :
    (atEntry m c main_v13 : S1x768.Idx → Elt F .f32)
      = shapeCast S1x768 (m ((c : Thread nD τ).loc main_arg3) : S768.Idx → Elt F .f32) shapeCasts_S768_S1x768 := by
  rw [entry_open]
  simp only [hostOps0_1, hostOps0_2, hostOps0_3, hostOps0_4, hostOps0_5, hostOps0_6, hostOps0_7, hostOps0_8, List.cons_append,
    List.nil_append]
  after_results
  rfl
theorem offset_entry (c : Dev nD) :
    (atEntry m c main_v14 : S1x768.Idx → Elt F .f32)
      = shapeCast S1x768 (m ((c : Thread nD τ).loc main_arg4) : S768.Idx → Elt F .f32) shapeCasts_S768_S1x768 := by
  rw [entry_open]
  simp only [hostOps0_1, hostOps0_2, hostOps0_3, hostOps0_4, hostOps0_5, hostOps0_6, hostOps0_7, hostOps0_8, List.cons_append,
    List.nil_append]
  after_results
  rfl

/-! ## The program's result -/

/-- After the closing reshape the result buffer holds the array the region wrote, laid out as 32 batches of 576 rows. -/
theorem result_exit (c : Dev nD) :
    (Pipeline.afterTail₀ cfgs (dats m) 0 (entry m) close c main_v16 : S32x576x768.Idx → Elt F .f32)
      = shapeCast S32x576x768 ((dats m 0 c).arrAt 5 cfg0.N : S18432x768.Idx → Elt F .f32) shapeCasts_S18432x768_S32x576x768 := by
  unfold Pipeline.afterTail₀
  show StableHlo.after hostOps1 _ (Proc.devRef .tc main_v16) = _
  after_results
  exact congrArg (fun X => shapeCast S32x576x768 X shapeCasts_S18432x768_S32x576x768)
    (Pipeline.withArrays_arr spec0 launch0.win.arr_inj c _ _ 5)

end Cert.KernelIdeal.Hand

end
-- ==== Proof.Spec.lean ====
/-
  What both programs compute, row by row, on the extended reals.  A patch row `a` (3840 entries) is projected by
  the weight matrix and shifted by the bias; the projected row (768 entries) is then normalised: its mean is taken
  off, the result is scaled by the reciprocal square root of its variance plus a small constant, multiplied by the
  gain and shifted by the offset.  Sums are finite sums of extended reals, the two quotients are by the float 768 and
  the small constant is the float nearest 1e-5: the same binary words on both sides, so they are never evaluated.
-/
import Idealize.ShloMosaic.PureOps.Ideal
import Idealize.ShloMosaic.Lib.ValueIdx

noncomputable section

namespace Cert.Spec

open Idealize.ShloMosaic

/-- The row length as the programs write it: the float 768. -/
def len : EReal := Ideal.ofBits .f32 0x44400000#32

/-- The constant added to the variance: the float nearest 1e-5. -/
def tiny : EReal := Ideal.ofBits .f32 0x3727C5AC#32

/-- A patch row times the weights, plus the bias. -/
def proj (a : Fin 3840 → EReal) (w : Fin 3840 → Fin 768 → EReal) (bias : Fin 768 → EReal) (e : Fin 768) : EReal :=
  (∑ k : Fin 3840, a k * w k e) + bias e

/-- The mean of a row. -/
def mean (v : Fin 768 → EReal) : EReal := Ideal.div (∑ e : Fin 768, v e) len

/-- The variance of a row: the mean of the squared distances from its mean. -/
def var (v : Fin 768 → EReal) : EReal := Ideal.div (∑ e : Fin 768, (v e - mean v) * (v e - mean v)) len

/-- The normalised row, scaled by the gain `g` and shifted by the offset `h`. -/
def norm (v g h : Fin 768 → EReal) (e : Fin 768) : EReal :=
  (v e - mean v) * Ideal.rsqrt (var v + tiny) * g e + h e

/-- A row of the result from its patch row. -/
def outRow (a : Fin 3840 → EReal) (w : Fin 3840 → Fin 768 → EReal) (bias g h : Fin 768 → EReal) (e : Fin 768) : EReal :=
  norm (proj a w bias) g h e

end Cert.Spec

end
-- ==== Proof.KI.Payload.lean ====
/-
  The kernel's arithmetic, read at one element.  The body of the kernel is one pure term over the five blocks it
  loads: a patch block (384 rows of 3840 entries), the weights, and three rows (bias, gain, offset).  At the
  extended reals the narrowing of the two product operands is the identity and the product into a zero accumulator is
  the plain sum over the 3840 contraction coordinates; the bias row is added to every row; then every row is
  normalised: its mean (the lane sum divided by the float 768) is taken off, the result is scaled by the reciprocal
  square root of the variance (the lane sum of squares divided by the float 768) plus a small constant, multiplied by
  the gain row and shifted by the offset row.  The theorem pay_row says that the element (p, e) of that term is the
  specification's outRow of row p of the patch block, at e.
-/
import proofs.«165786_j11519102287954_1_alg».proof.Proof.Gen.KernelIdeal.Skeleton
import proofs.«165786_j11519102287954_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.Pay

open Idealize.ShloMosaic Idealize.ShloMosaic.ValueIdx Cert.KernelIdeal Cert.KernelIdeal.Gen

/-! ## The product's operand indices, axis by axis

The product contracts axis 1 of the left operand with axis 0 of the right one; the other axis of each operand is a
result axis.  So at result index i and contraction index q the left operand is read at (i 0, q) and the right one at
(q, i 1). -/

theorem lhs_axis0 (i : S384x768.Idx) (q : dot_S384x3840_S3840x768_S384x768_1_0_0_1_n_n.contr.Idx) :
    (dot_S384x3840_S3840x768_S384x768_1_0_0_1_n_n.lhsIdx i q 0).val = (i 0).val := by
  unfold DotDims.lhsIdx
  rw [dif_neg (show ¬(0 : Fin S384x3840.rank) ∈ dot_S384x3840_S3840x768_S384x768_1_0_0_1_n_n.lhsBatch by decide),
    dif_pos (show (0 : Fin S384x3840.rank) ∈ dot_S384x3840_S3840x768_S384x768_1_0_0_1_n_n.lhsNonContracting by decide)]
  rfl

theorem lhs_axis1 (i : S384x768.Idx) (q : dot_S384x3840_S3840x768_S384x768_1_0_0_1_n_n.contr.Idx) :
    (dot_S384x3840_S3840x768_S384x768_1_0_0_1_n_n.lhsIdx i q 1).val = (q ⟨0, by decide⟩).val :=
  dot_S384x3840_S3840x768_S384x768_1_0_0_1_n_n.lhsIdx_val_of_single rfl i q

theorem rhs_axis0 (i : S384x768.Idx) (q : dot_S384x3840_S3840x768_S384x768_1_0_0_1_n_n.contr.Idx) :
    (dot_S384x3840_S3840x768_S384x768_1_0_0_1_n_n.rhsIdx i q 0).val = (q ⟨0, by decide⟩).val :=
  dot_S384x3840_S3840x768_S384x768_1_0_0_1_n_n.rhsIdx_val_of_single rfl i q

theorem rhs_axis1 (i : S384x768.Idx) (q : dot_S384x3840_S3840x768_S384x768_1_0_0_1_n_n.contr.Idx) :
    (dot_S384x3840_S3840x768_S384x768_1_0_0_1_n_n.rhsIdx i q 1).val = (i 1).val := by
  unfold DotDims.rhsIdx
  rw [dif_neg (show ¬(1 : Fin S3840x768.rank) ∈ dot_S384x3840_S3840x768_S384x768_1_0_0_1_n_n.rhsBatch by decide),
    dif_pos (show (1 : Fin S3840x768.rank) ∈ dot_S384x3840_S3840x768_S384x768_1_0_0_1_n_n.rhsNonContracting by decide)]
  rfl

/-- The product into a zero accumulator, at (p, e): the sum over the 3840 contraction coordinates k of the left
    operand at (p, k) times the right operand at (k, e). -/
theorem matmul_row (a : FVec Ideal S384x3840 .bf16) (w : FVec Ideal S3840x768 .bf16) (p : Fin 384) (e : Fin 768) :
    matmul dot_S384x3840_S3840x768_S384x768_1_0_0_1_n_n none a w (constant (F := Ideal) S384x768 .f32 0x00000000#32) (ix2 p e)
      = ∑ k : Fin 3840, a (ix2 p k) * w (ix2 k e) := by
  simp only [matmul]
  rw [Ideal.matmul_constant_zero_apply,
    ← Equiv.sum_comp (contrEquiv1 dot_S384x3840_S3840x768_S384x768_1_0_0_1_n_n 3840 rfl rfl).symm]
  refine Finset.sum_congr rfl fun k _ => ?_
  have hk := contrEquiv1_symm_val dot_S384x3840_S3840x768_S384x768_1_0_0_1_n_n 3840 rfl rfl k
  have el : dot_S384x3840_S3840x768_S384x768_1_0_0_1_n_n.lhsIdx (ix2 p e)
      ((contrEquiv1 dot_S384x3840_S3840x768_S384x768_1_0_0_1_n_n 3840 rfl rfl).symm k) = ix2 p k :=
    funext fun ax => Fin.ext (by
      match ax with
      | ⟨0, _⟩ => exact lhs_axis0 _ _
      | ⟨1, _⟩ => exact (lhs_axis1 _ _).trans hk)
  have er : dot_S384x3840_S3840x768_S384x768_1_0_0_1_n_n.rhsIdx (ix2 p e)
      ((contrEquiv1 dot_S384x3840_S3840x768_S384x768_1_0_0_1_n_n 3840 rfl rfl).symm k) = ix2 k e :=
    funext fun ax => Fin.ext (by
      match ax with
      | ⟨0, _⟩ => exact (rhs_axis0 _ _).trans hk
      | ⟨1, _⟩ => exact rhs_axis1 _ _)
  rw [el, er]

/-! ## The kernel's intermediate vectors, named

Each definition below is one stretch of the kernel's body, as a function of the vectors it reads. -/

/-- The projected block: the product of the patch block and the weights, plus the bias row on every row. -/
def projBlock (v0 : Vec Ideal S384x3840 .f32) (v3 : Vec Ideal S3840x768 .f32) (v6 : Vec Ideal S1x768 .f32) :
    FVec Ideal S384x768 .f32 :=
  addf
    (matmul dot_S384x3840_S3840x768_S384x768_1_0_0_1_n_n none
      (truncf .bf16 (shapeCast S384x3840 v0 shapeCasts_S384x3840_S384x3840) bitsLt_bf16_f32)
      (truncf .bf16 v3 bitsLt_bf16_f32) (constant S384x768 .f32 0x00000000#32))
    (broadcastTo S384x768 (shapeCast S1x768 v6 shapeCasts_S1x768_S1x768) broadcasts_S1x768_S384x768)

/-- The sum of every row over its 768 lanes. -/
def laneSum (x : FVec Ideal S384x768 .f32) : FVec Ideal S384 .f32 :=
  multiReduction .add [1] S384 x 0x00000000#32 reduces_S384x768_S384 (.inl rfl) rfl

/-- A vector of 384 entries as a column. -/
def asCol (x : FVec Ideal S384 .f32) : FVec Ideal S384x1 .f32 := shapeCast S384x1 x shapeCasts_S384_S384x1

/-- A column repeated along the 768 lanes. -/
def spread (c : FVec Ideal S384x1 .f32) : FVec Ideal S384x768 .f32 :=
  broadcastTo S384x768 c broadcasts_S384x1_S384x768

/-- One row repeated on the 384 rows. -/
def rows (r : Vec Ideal S1x768 .f32) : FVec Ideal S384x768 .f32 :=
  broadcastTo S384x768 (shapeCast S1x768 r shapeCasts_S1x768_S1x768) broadcasts_S1x768_S384x768

/-- The column of row means: the lane sums divided by the float 768. -/
def meanCol (x : FVec Ideal S384x768 .f32) : FVec Ideal S384x1 .f32 :=
  divf (asCol (laneSum x)) (broadcast S384x1 (Scalar.ofBits .f32 0x44400000#32))

/-- The block with every row's mean taken off. -/
def centred (x : FVec Ideal S384x768 .f32) : FVec Ideal S384x768 .f32 := subf x (spread (meanCol x))

/-- The column of reciprocal square roots of the row variances plus the small constant. -/
def rsCol (x : FVec Ideal S384x768 .f32) : FVec Ideal S384x1 .f32 :=
  rsqrt (addf
    (divf (asCol (laneSum (mulf (centred x) (centred x)))) (broadcast S384x1 (Scalar.ofBits .f32 0x44400000#32)))
    (broadcast S384x1 (Scalar.ofBits .f32 0x3727C5AC#32)))

/-- The normalised block, scaled by the gain row and shifted by the offset row. -/
def normBlock (x : FVec Ideal S384x768 .f32) (g h : Vec Ideal S1x768 .f32) : FVec Ideal S384x768 .f32 :=
  addf (mulf (mulf (centred x) (spread (rsCol x))) (rows g)) (rows h)

/-- The kernel's body is the normalised projected block: the same term, the intermediate vectors substituted. -/
theorem pay_eq (v0 : Vec Ideal S384x3840 .f32) (v3 : Vec Ideal S3840x768 .f32) (v6 v28 v32 : Vec Ideal S1x768 .f32) :
    k0_pay1 (F := Ideal) v0 v3 v6 v28 v32 = normBlock (projBlock v0 v3 v6) v28 v32 := rfl

/-! ## Each stretch read at an element -/

/-- The projected block at (p, e) is the specification's projection of row p of the patch block, at e: the
    narrowing and the shape cast to the same shape are the identity, the product is the sum over the contraction
    coordinate, and the bias row is read at its one row. -/
theorem projBlock_apply (v0 : Vec Ideal S384x3840 .f32) (v3 : Vec Ideal S3840x768 .f32) (v6 : Vec Ideal S1x768 .f32)
    (p : Fin 384) (e : Fin 768) :
    projBlock v0 v3 v6 (ix2 p e)
      = Cert.Spec.proj (fun k => v0 (ix2 p k)) (fun k e' => v3 (ix2 k e')) (fun e' => v6 (ix2 (0 : Fin 1) e')) e := by
  unfold projBlock Cert.Spec.proj
  rw [addf_apply, matmul_row, broadcastTo_1b_ab_apply, shapeCast_self, shapeCast_self]
  rfl

/-- A lane sum at row p is the sum over the 768 lanes e of the block at (p, e). -/
theorem laneSum_apply (x : FVec Ideal S384x768 .f32) (p : Fin 384) :
    laneSum x (ix1 p) = ∑ e : Fin 768, x (ix2 p e) :=
  (Ideal.multiReduction_add_single x 0x00000000#32 reduces_S384x768_S384 (.inl rfl) rfl (ix1 p)).trans
    (Finset.sum_congr rfl fun e _ => congrArg x (funext fun ax => Fin.ext (by
      match ax with
      | ⟨0, _⟩ => rfl
      | ⟨1, _⟩ => rfl)))

/-- A vector seen as a column reads, at (p, 0), its entry p: both have row-major position p. -/
theorem asCol_apply (x : FVec Ideal S384 .f32) (p : Fin 384) : asCol x (ix2 p (0 : Fin 1)) = x (ix1 p) :=
  shapeCast_apply x shapeCasts_S384_S384x1 (ix2 p (0 : Fin 1)) (ix1 p) (by
    rw [Shape.rowMajor_val_one, Shape.rowMajor_val_two]
    show p.val = p.val * 1 + 0
    rw [Nat.mul_one, Nat.add_zero])

/-- A column repeated along the lanes reads, at (p, e), the column's entry (p, 0). -/
theorem spread_apply (c : FVec Ideal S384x1 .f32) (p : Fin 384) (e : Fin 768) :
    spread c (ix2 p e) = c (ix2 p (0 : Fin 1)) := by
  refine broadcastTo_apply c broadcasts_S384x1_S384x768 (ix2 p e) (ix2 p (0 : Fin 1)) fun ax => ?_
  match ax with
  | ⟨0, _⟩ =>
    show p.val = if (384 : Nat) = 1 then 0 else p.val
    rw [if_neg (by decide)]
  | ⟨1, _⟩ => rfl

/-- One row repeated on every row reads, at (p, e), the row's entry e. -/
theorem rows_apply (r : Vec Ideal S1x768 .f32) (p : Fin 384) (e : Fin 768) :
    rows r (ix2 p e) = r (ix2 (0 : Fin 1) e) := by
  unfold rows
  rw [broadcastTo_1b_ab_apply, shapeCast_self]

/-- The mean column at (p, 0) is the specification's mean of row p. -/
theorem meanCol_apply (x : FVec Ideal S384x768 .f32) (p : Fin 384) :
    meanCol x (ix2 p (0 : Fin 1)) = Cert.Spec.mean (fun e => x (ix2 p e)) := by
  unfold meanCol Cert.Spec.mean Cert.Spec.len
  rw [divf_apply, asCol_apply, laneSum_apply, broadcast_apply]
  rfl

/-- The centred block at (p, e) is the entry minus the mean of its row. -/
theorem centred_apply (x : FVec Ideal S384x768 .f32) (p : Fin 384) (e : Fin 768) :
    centred x (ix2 p e) = x (ix2 p e) - Cert.Spec.mean (fun e' => x (ix2 p e')) := by
  unfold centred
  rw [subf_apply, spread_apply, meanCol_apply]

/-- A reciprocal square root at an index is the extended reals' reciprocal square root of the element. -/
theorem rsqrt_apply {s : Shape} {φ : FTy} (a : FVec Ideal s φ) (i : s.Idx) : rsqrt a i = Ideal.rsqrt (a i) := rfl

/-- The scale column at (p, 0) is the reciprocal square root of the variance of row p plus the small constant. -/
theorem rsCol_apply (x : FVec Ideal S384x768 .f32) (p : Fin 384) :
    rsCol x (ix2 p (0 : Fin 1))
      = Ideal.rsqrt (Cert.Spec.var (fun e => x (ix2 p e)) + Cert.Spec.tiny) := by
  unfold rsCol Cert.Spec.var Cert.Spec.len Cert.Spec.tiny
  rw [rsqrt_apply, addf_apply, divf_apply, asCol_apply, laneSum_apply, broadcast_apply, broadcast_apply]
  simp only [mulf_apply, centred_apply]
  rfl

/-- The normalised block at (p, e) is the specification's normalised row p, at e. -/
theorem normBlock_apply (x : FVec Ideal S384x768 .f32) (g h : Vec Ideal S1x768 .f32) (p : Fin 384) (e : Fin 768) :
    normBlock x g h (ix2 p e)
      = Cert.Spec.norm (fun e' => x (ix2 p e')) (fun e' => g (ix2 (0 : Fin 1) e')) (fun e' => h (ix2 (0 : Fin 1) e')) e := by
  unfold normBlock Cert.Spec.norm
  rw [addf_apply, mulf_apply, mulf_apply, centred_apply, spread_apply, rsCol_apply, rows_apply, rows_apply]

/-! ## The kernel's payload at an element -/

/-- Element (p, e) of the value the kernel stores is the specification's result row of row p of the patch block,
    at e. -/
theorem pay_row (v0 : Vec Ideal S384x3840 .f32) (v3 : Vec Ideal S3840x768 .f32) (v6 v28 v32 : Vec Ideal S1x768 .f32)
    (p : Fin 384) (e : Fin 768) :
    k0_pay1 (F := Ideal) v0 v3 v6 v28 v32 (ix2 p e)
      = Cert.Spec.outRow (fun k => v0 (ix2 p k)) (fun k e' => v3 (ix2 k e')) (fun e' => v6 (ix2 (0 : Fin 1) e'))
          (fun e' => v28 (ix2 (0 : Fin 1) e')) (fun e' => v32 (ix2 (0 : Fin 1) e')) e := by
  rw [pay_eq, normBlock_apply]
  unfold Cert.Spec.outRow
  have hrow : (fun e' => projBlock v0 v3 v6 (ix2 p e'))
      = Cert.Spec.proj (fun k => v0 (ix2 p k)) (fun k e' => v3 (ix2 k e')) (fun e' => v6 (ix2 (0 : Fin 1) e')) :=
    funext fun e' => projBlock_apply v0 v3 v6 p e'
  rw [hrow]

end Cert.KernelIdeal.Hand.Pay

end
-- ==== Proof.KI.Value.lean ====
/-
  What the idealized kernel program computes.  Each grid step leaves in the result block the normalised projection
  of its 384 patch rows, row by row (the body's arithmetic read at an element); a block's rows are rows of the
  arrays; the 48 blocks cover the result array; so after the run row `r` of the result array is the normalised
  projection of patch row `r`, and the program's result, the closing reshape of that array, holds at (b, n, ·) the
  array's row `576 b + n`.  The weight matrix is entered as launched, each parameter row is its vector, and the
  patch array is the six-axis patch tensor read in row-major order.
-/
import proofs.«165786_j11519102287954_1_alg».proof.Proof.KI.Blocks
import proofs.«165786_j11519102287954_1_alg».proof.Proof.KI.Payload
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The specification's row depends on its arguments only. -/
theorem outRow_congr {a a' : Fin 3840 → EReal} {w w' : Fin 3840 → Fin 768 → EReal} {b b' g g' h h' : Fin 768 → EReal} {e e' : Fin 768}
    (ha : a = a') (hw : w = w') (hb : b = b') (hg : g = g') (hh : h = h') (he : e = e') :
    Cert.Spec.outRow a w b g h e = Cert.Spec.outRow a' w' b' g' h' e' := by
  subst ha hw hb hg hh he; rfl

/-- The result array after the run: row `r` is the normalised projection of row `r` of the patch array, by the weights and
    parameter rows the region is entered at. -/
def outRows (c : Dev nD) : S18432x768.Idx → Elt Ideal .f32 := fun i =>
  Cert.Spec.outRow
    (fun k => (atEntry m c main_v11 : S18432x3840.Idx → Elt Ideal .f32) (ix2 (⟨(i 0).val, (i 0).isLt⟩ : Fin 18432) k))
    (fun k e => (atEntry m c main_arg1 : S3840x768.Idx → Elt Ideal .f32) (ix2 k e))
    (fun e => (atEntry m c main_v12 : S1x768.Idx → Elt Ideal .f32) (ix2 (0 : Fin 1) e))
    (fun e => (atEntry m c main_v13 : S1x768.Idx → Elt Ideal .f32) (ix2 (0 : Fin 1) e))
    (fun e => (atEntry m c main_v14 : S1x768.Idx → Elt Ideal .f32) (ix2 (0 : Fin 1) e))
    (⟨(i 1).val, (i 1).isLt⟩ : Fin 768)

/-- Row `p` of what step `t` leaves in the result block is row `384 t + p` of `outRows`. -/
theorem step_rows (c : Dev nD) (t : Fin cfg0.N) (p : Fin 384) (e : Fin 768) (i : S18432x768.Idx)
    (h0 : (i 0).val = t.val * 384 + p.val) (h1 : (i 1).val = e.val) :
    k0_pay1 (F := Ideal) (blk m c 0 t) (blk m c 1 t) (blk m c 2 t) (blk m c 3 t) (blk m c 4 t) (ix2 p e) = outRows m c i := by
  refine (Pay.pay_row (blk m c 0 t) (blk m c 1 t) (blk m c 2 t) (blk m c 3 t) (blk m c 4 t) p e).trans ?_
  unfold outRows
  exact outRow_congr (funext fun k => patch_block m c t p k _ h0) (funext fun k => funext fun e' => weight_block m c t k e')
    (funext fun e' => bias_block m c t e') (funext fun e' => gain_block m c t e') (funext fun e' => offset_block m c t e')
    (Fin.ext h1.symm)

/-- A block of 384 rows whose row `p` is row `384 t + p` of an array `G` of 18432 rows is step `t`'s block of `G`. -/
theorem block_of_rows (t : Fin cfg0.N) (Y : Vec Ideal S384x768 .f32) (G : S18432x768.Idx → Elt Ideal .f32)
    (h : ∀ (p : Fin 384) (e : Fin 768) (i : S18432x768.Idx), (i 0).val = t.val * 384 + p.val → (i 1).val = e.val → Y (ix2 p e) = G i) :
    (cfg0.win 5).cut (grid0.coords t) Y = ((cfg0.win 5).blk t).view.read (Elt Ideal) G := by
  funext j
  have hj0 : (j 0).val < 384 := (j 0).isLt
  have hj1 : (j 1).val < 768 := (j 1).isLt
  rw [View.read_apply]
  show Y j = G (((cfg0.win 5).blk t).view.emb j)
  have hj : j = ix2 (⟨(j 0).val, hj0⟩ : Fin 384) (⟨(j 1).val, hj1⟩ : Fin 768) := by
    funext a; match a with | ⟨0, _⟩ => rfl | ⟨1, _⟩ => rfl
  refine (congrArg Y hj).trans (h ⟨(j 0).val, hj0⟩ ⟨(j 1).val, hj1⟩ _ ?_ ?_)
  · show win0_5.index t (0 : Fin 2) * 384 + 1 * (j 0).val = t.val * 384 + (j 0).val
    rw [(out_at t).1]; omega
  · show win0_5.index t (1 : Fin 2) * 768 + 1 * (j 1).val = (j 1).val
    rw [(out_at t).2]; omega

/-- What step `t` writes back is block `t` of `outRows`. -/
theorem written_back (c : Dev nD) (t : Fin cfg0.N) (hf : (cfg0.win 5).flush t = true) :
    (dats m 0 c).flushed 5 t = ((cfg0.win 5).blk t).view.read (Elt Ideal) (outRows m c) := by
  show (cfg0.win 5).cut (grid0.coords t) ((dats m 0 c).after 5 t) = _
  rw [left5]
  exact block_of_rows t _ _ (fun p e i h0 h1 => step_rows m c t p e i h0 h1)

/-- The result array after the run. -/
theorem out_final (c : Dev nD) : (dats m 0 c).arrAt 5 cfg0.N = outRows m c :=
  (dats m 0 c).arrAt_eq_of_cover 5 (outRows m c) (fun t hf => written_back m c t hf) out_covered

/-- The program's result at (b, n, e) is the result array at row `576 b + n`. -/
theorem result_at (c : Dev nD) (b : Fin 32) (n : Fin 576) (e : Fin 768) (r : Fin 18432) (hr : r.val = b.val * 576 + n.val) :
    (Pipeline.afterTail₀ cfgs (dats m) 0 (entry m) close c main_v16 : S32x576x768.Idx → Elt Ideal .f32) (ix3 b n e)
      = outRows m c (ix2 r e) := by
  rw [result_exit, out_final]
  refine shapeCast_apply _ _ (ix3 b n e) (ix2 r e) ?_
  rw [Shape.rowMajor_val_two, Shape.rowMajor_val_three]
  show r.val * 768 + e.val = (b.val * 576 + n.val) * 768 + e.val
  rw [hr]

/-- A parameter row the region is entered at, read at an element, is its vector there. -/
theorem bias_at_entry (c : Dev nD) (e : Fin 768) :
    (atEntry m c main_v12 : S1x768.Idx → Elt Ideal .f32) (ix2 (0 : Fin 1) e) = (m ((c : Thread nD τ).loc main_arg2) : S768.Idx → Elt Ideal .f32) (ix1 e) := by
  rw [bias_entry]; exact ValueIdx.shapeCast_a_1a_apply _ _ (0 : Fin 1) e
theorem gain_at_entry (c : Dev nD) (e : Fin 768) :
    (atEntry m c main_v13 : S1x768.Idx → Elt Ideal .f32) (ix2 (0 : Fin 1) e) = (m ((c : Thread nD τ).loc main_arg3) : S768.Idx → Elt Ideal .f32) (ix1 e) := by
  rw [gain_entry]; exact ValueIdx.shapeCast_a_1a_apply _ _ (0 : Fin 1) e
theorem offset_at_entry (c : Dev nD) (e : Fin 768) :
    (atEntry m c main_v14 : S1x768.Idx → Elt Ideal .f32) (ix2 (0 : Fin 1) e) = (m ((c : Thread nD τ).loc main_arg4) : S768.Idx → Elt Ideal .f32) (ix1 e) := by
  rw [offset_entry]; exact ValueIdx.shapeCast_a_1a_apply _ _ (0 : Fin 1) e

/-- THE VALUE of the idealized kernel program: its result at (b, n, e), from the launch contents of the weights and the three
    parameter vectors and from the six-axis patch tensor the host lines build, read as 18432 rows of 3840. -/
theorem result_value (c : Dev nD) (b : Fin 32) (n : Fin 576) (e : Fin 768) (r : Fin 18432) (hr : r.val = b.val * 576 + n.val) :
    (Pipeline.afterTail₀ cfgs (dats m) 0 (entry m) close c main_v16 : S32x576x768.Idx → Elt Ideal .f32) (ix3 b n e)
      = Cert.Spec.outRow
          (fun k => shapeCast S18432x3840 (atEntry m c main_v10 : S32x24x24x15x16x16.Idx → Elt Ideal .f32)
            shapeCasts_S32x24x24x15x16x16_S18432x3840 (ix2 r k))
          (fun k e' => (m ((c : Thread nD τ).loc main_arg1) : S3840x768.Idx → Elt Ideal .f32) (ix2 k e'))
          (fun e' => (m ((c : Thread nD τ).loc main_arg2) : S768.Idx → Elt Ideal .f32) (ix1 e'))
          (fun e' => (m ((c : Thread nD τ).loc main_arg3) : S768.Idx → Elt Ideal .f32) (ix1 e'))
          (fun e' => (m ((c : Thread nD τ).loc main_arg4) : S768.Idx → Elt Ideal .f32) (ix1 e')) e := by
  rw [result_at m c b n e r hr]
  unfold outRows
  exact outRow_congr (funext fun k => congrFun (patches_entry m c) (ix2 r k))
    (funext fun k => funext fun e' => congrFun (entry_arg1 m c) (ix2 k e'))
    (funext fun e' => bias_at_entry m c e') (funext fun e' => gain_at_entry m c e') (funext fun e' => offset_at_entry m c e') rfl

end Cert.KernelIdeal.Hand

end
-- ==== Proof.RefRow.lean ====
import proofs.«165786_j11519102287954_1_alg».proof.Proof.Gen.ReferenceIdeal.Read
import proofs.«165786_j11519102287954_1_alg».proof.Proof.Spec

/-
  The reference program, read one row at a time.  From the patch array on, the reference multiplies each patch row
  by the weight matrix, adds the bias, and normalises the resulting row of 768 entries: mean, variance (both as a
  sum divided by the float 768), reciprocal square root of the variance plus a small constant, gain and offset.
  Each stage is read at an index; the composed index maps are identified with the coordinate constructors; the two
  sums start from the zero word, which is the real 0.  What remains is, term for term, the row specification.
-/

noncomputable section

namespace Cert.RefRow

open Idealize.ShloMosaic Idealize.ShloMosaic.ValueIdx Cert.ReferenceIdeal Cert.ReferenceIdeal.Read

/-! ## The composed index maps, by coordinates -/

/-- The left operand of the matrix product at output position `(b, n, e)`, contraction index `k`, is read at `(b, n, k)`. -/
theorem lidx12 (b : Fin 32) (n : Fin 576) (e : Fin 768) (k : Fin 3840) :
    lidx_main_v12 (ix3 b n e) k = ix3 b n k :=
  funext fun a => Fin.ext (by match a with | ⟨0, _⟩ => rfl | ⟨1, _⟩ => rfl | ⟨2, _⟩ => rfl)

/-- The right operand is read at `(k, e)`. -/
theorem ridx12 (b : Fin 32) (n : Fin 576) (e : Fin 768) (k : Fin 3840) :
    ridx_main_v12 (ix3 b n e) k = ix2 k e :=
  funext fun a => Fin.ext (by match a with | ⟨0, _⟩ => rfl | ⟨1, _⟩ => rfl)

/-- The bias, broadcast twice, is read at `e`. -/
theorem idx13_14 (b : Fin 32) (n : Fin 576) (e : Fin 768) :
    idx_main_v13 (idx_main_v14 (ix3 b n e)) = ix1 e :=
  funext fun a => Fin.ext (by match a with | ⟨0, _⟩ => rfl)

/-- The first row sum at `(b, n, ·)` (unit last axis) runs over `(b, n, k)`. -/
theorem idx16_17 (b : Fin 32) (n : Fin 576) (z : Fin 1) (k : Fin 768) :
    idx_main_v16 (idx_main_v17 (ix3 b n z)) k = ix3 b n k :=
  funext fun a => Fin.ext (by match a with | ⟨0, _⟩ => rfl | ⟨1, _⟩ => rfl | ⟨2, _⟩ => rfl)

/-- The second row sum likewise. -/
theorem idx23_24 (b : Fin 32) (n : Fin 576) (z : Fin 1) (k : Fin 768) :
    idx_main_v23 (idx_main_v24 (ix3 b n z)) k = ix3 b n k :=
  funext fun a => Fin.ext (by match a with | ⟨0, _⟩ => rfl | ⟨1, _⟩ => rfl | ⟨2, _⟩ => rfl)

/-- A per-row quantity broadcast along the row is read at the unit coordinate. -/
theorem idx20 (b : Fin 32) (n : Fin 576) (e : Fin 768) :
    idx_main_v20 (ix3 b n e) = ix3 b n (0 : Fin 1) :=
  funext fun a => Fin.ext (by match a with | ⟨0, _⟩ => rfl | ⟨1, _⟩ => rfl | ⟨2, _⟩ => rfl)

theorem idx27 (b : Fin 32) (n : Fin 576) (e : Fin 768) :
    idx_main_v27 (ix3 b n e) = ix3 b n (0 : Fin 1) :=
  funext fun a => Fin.ext (by match a with | ⟨0, _⟩ => rfl | ⟨1, _⟩ => rfl | ⟨2, _⟩ => rfl)

theorem idx32 (b : Fin 32) (n : Fin 576) (e : Fin 768) :
    idx_main_v32 (ix3 b n e) = ix3 b n (0 : Fin 1) :=
  funext fun a => Fin.ext (by match a with | ⟨0, _⟩ => rfl | ⟨1, _⟩ => rfl | ⟨2, _⟩ => rfl)

/-- The gain, broadcast twice, is read at `e`. -/
theorem idx34_35 (b : Fin 32) (n : Fin 576) (e : Fin 768) :
    idx_main_v34 (idx_main_v35 (ix3 b n e)) = ix1 e :=
  funext fun a => Fin.ext (by match a with | ⟨0, _⟩ => rfl)

/-- The offset, broadcast twice, is read at `e`. -/
theorem idx37_38 (b : Fin 32) (n : Fin 576) (e : Fin 768) :
    idx_main_v37 (idx_main_v38 (ix3 b n e)) = ix1 e :=
  funext fun a => Fin.ext (by match a with | ⟨0, _⟩ => rfl)

/-! ## The projected row -/

/-- The projected row: the patch row times the weights, plus the bias. -/
theorem proj_row (x0 : (⟨S32x3x384x384, .f32⟩ : BufTy).Contents (Elt Ideal)) (x1 : (⟨S3840x768, .f32⟩ : BufTy).Contents (Elt Ideal))
    (x2 : (⟨S768, .f32⟩ : BufTy).Contents (Elt Ideal)) (b : Fin 32) (n : Fin 576) (e : Fin 768) :
    val_main_v15 (F := Ideal) x0 x1 x2 (ix3 b n e)
      = Cert.Spec.proj (fun k => val_main_v11 (F := Ideal) x0 (ix3 b n k)) (fun k e' => x1 (ix2 k e'))
          (fun e' => x2 (ix1 e')) e := by
  rw [val_main_v15_apply, val_main_v12_apply, val_main_v14_apply, val_main_v13_apply]
  simp only [lidx12, ridx12, idx13_14, Ideal.addf_def]
  rfl

/-! ## The row statistics -/

/-- The mean of the projected row at `(b, n)`: the row's sum (started from the zero word) over the float 768. -/
theorem mean_row (x0 : (⟨S32x3x384x384, .f32⟩ : BufTy).Contents (Elt Ideal)) (x1 : (⟨S3840x768, .f32⟩ : BufTy).Contents (Elt Ideal))
    (x2 : (⟨S768, .f32⟩ : BufTy).Contents (Elt Ideal)) (b : Fin 32) (n : Fin 576) (z : Fin 1) :
    val_main_v19 (F := Ideal) x0 x1 x2 (ix3 b n z)
      = Cert.Spec.mean (fun e => val_main_v15 (F := Ideal) x0 x1 x2 (ix3 b n e)) := by
  rw [val_main_v19_apply, val_main_v17_apply, val_main_v16_apply, val_main_v18_apply, val_main_cst_apply,
    val_main_cst_3_apply]
  simp only [idx16_17, Ideal.hostDivf_def, Ideal.ofBits_def, Ideal.ofBits_zero_f32, zero_add]
  unfold Cert.Spec.mean Cert.Spec.len
  rfl

/-- A squared distance from the mean, as the reference computes it. -/
theorem sq_row (x0 : (⟨S32x3x384x384, .f32⟩ : BufTy).Contents (Elt Ideal)) (x1 : (⟨S3840x768, .f32⟩ : BufTy).Contents (Elt Ideal))
    (x2 : (⟨S768, .f32⟩ : BufTy).Contents (Elt Ideal)) (b : Fin 32) (n : Fin 576) (e : Fin 768) :
    val_main_v22 (F := Ideal) x0 x1 x2 (ix3 b n e)
      = (val_main_v15 (F := Ideal) x0 x1 x2 (ix3 b n e)
            - Cert.Spec.mean (fun e' => val_main_v15 (F := Ideal) x0 x1 x2 (ix3 b n e')))
        * (val_main_v15 (F := Ideal) x0 x1 x2 (ix3 b n e)
            - Cert.Spec.mean (fun e' => val_main_v15 (F := Ideal) x0 x1 x2 (ix3 b n e'))) := by
  rw [val_main_v22_apply, val_main_v21_apply, val_main_v20_apply, idx20, mean_row]
  rfl

/-- The variance of the projected row at `(b, n)`: the sum of the squared distances from the mean (started from
    the zero word) over the float 768. -/
theorem var_row (x0 : (⟨S32x3x384x384, .f32⟩ : BufTy).Contents (Elt Ideal)) (x1 : (⟨S3840x768, .f32⟩ : BufTy).Contents (Elt Ideal))
    (x2 : (⟨S768, .f32⟩ : BufTy).Contents (Elt Ideal)) (b : Fin 32) (n : Fin 576) (z : Fin 1) :
    val_main_v26 (F := Ideal) x0 x1 x2 (ix3 b n z)
      = Cert.Spec.var (fun e => val_main_v15 (F := Ideal) x0 x1 x2 (ix3 b n e)) := by
  rw [val_main_v26_apply, val_main_v24_apply, val_main_v23_apply, val_main_v25_apply, val_main_cst_4_apply,
    val_main_cst_5_apply]
  simp only [idx23_24, sq_row, Ideal.hostDivf_def, Ideal.ofBits_def, Ideal.ofBits_zero_f32, zero_add]
  unfold Cert.Spec.var Cert.Spec.len
  rfl

/-! ## The result row -/

/-- The result at `(b, n, e)` is the normalised projected row: the distance from the mean, times the reciprocal
    square root of the variance plus the small constant, times the gain, plus the offset. -/
theorem norm_row (x0 : (⟨S32x3x384x384, .f32⟩ : BufTy).Contents (Elt Ideal)) (x1 : (⟨S3840x768, .f32⟩ : BufTy).Contents (Elt Ideal))
    (x2 x3 x4 : (⟨S768, .f32⟩ : BufTy).Contents (Elt Ideal)) (b : Fin 32) (n : Fin 576) (e : Fin 768) :
    val_main_v39 (F := Ideal) x0 x1 x2 x3 x4 (ix3 b n e)
      = Cert.Spec.norm (fun e' => val_main_v15 (F := Ideal) x0 x1 x2 (ix3 b n e'))
          (fun e' => x3 (ix1 e')) (fun e' => x4 (ix1 e')) e := by
  rw [val_main_v39_apply, val_main_v36_apply, val_main_v33_apply, val_main_v28_apply, val_main_v27_apply,
    val_main_v32_apply, val_main_v31_apply, val_main_v30_apply, val_main_v29_apply, val_main_cst_6_apply,
    val_main_v35_apply, val_main_v34_apply, val_main_v38_apply, val_main_v37_apply,
    idx27, idx32, idx34_35, idx37_38, mean_row, var_row]
  unfold Cert.Spec.norm Cert.Spec.tiny
  rfl

/-- The reference's result, row by row, is the row specification applied to the patch row. -/
theorem ref_row (x0 : (⟨S32x3x384x384, .f32⟩ : BufTy).Contents (Elt Ideal)) (x1 : (⟨S3840x768, .f32⟩ : BufTy).Contents (Elt Ideal))
    (x2 x3 x4 : (⟨S768, .f32⟩ : BufTy).Contents (Elt Ideal)) (b : Fin 32) (n : Fin 576) (e : Fin 768) :
    val_main_v39 (F := Ideal) x0 x1 x2 x3 x4 (ix3 b n e)
      = Cert.Spec.outRow (fun k => val_main_v11 (F := Ideal) x0 (ix3 b n k)) (fun k e' => x1 (ix2 k e'))
          (fun e' => x2 (ix1 e')) (fun e' => x3 (ix1 e')) (fun e' => x4 (ix1 e')) e := by
  have hrow : (fun e' => val_main_v15 (F := Ideal) x0 x1 x2 (ix3 b n e'))
      = Cert.Spec.proj (fun k => val_main_v11 (F := Ideal) x0 (ix3 b n k)) (fun k e' => x1 (ix2 k e'))
          (fun e' => x2 (ix1 e')) :=
    funext fun e' => proj_row x0 x1 x2 b n e'
  rw [norm_row, hrow]
  rfl

end Cert.RefRow

end
-- ==== Proof.Bridge.lean ====
/-
  The two idealized programs compute one function.  Both build the same six-axis patch tensor from the image by the
  same host lines (four zero-padded diagonal shifts, the channel-wise concatenation, the cut into 16×16 patches);
  the kernel program reads it as 18432 rows of 3840 and the reference as 32 batches of 576 rows of 3840, so row
  `576 b + n` of the one is row (b, n) of the other: a reshape keeps row-major order.  From that row on both apply the
  specification's row function: the kernel program by its body's arithmetic, block by block, the reference by its
  host operations, one after the other.
-/
import proofs.«165786_j11519102287954_1_alg».proof.Defs
import proofs.«165786_j11519102287954_1_alg».proof.Proof.KI.Value
import proofs.«165786_j11519102287954_1_alg».proof.Proof.RefRow

set_option maxRecDepth 16384

noncomputable section

namespace Cert.Bridge

open Idealize.ShloMosaic Idealize.ShloMosaic.TcCoe Idealize.ShloMosaic.ValueIdx Idealize.ShloMosaic.StableHlo
open Idealize.SL.Sem

/-- Two reshapes of one array, to 18432 rows and to 32 batches of 576 rows: row `576 b + n` of the first is row (b, n) of
    the second, element by element, since both read the array in row-major order. -/
theorem rows_of_batches {α : Type} {s : Shape} (X : s.Idx → α) (h2 : s.ShapeCasts ⟨2, ![18432, 3840]⟩)
    (h3 : s.ShapeCasts ⟨3, ![32, 576, 3840]⟩) (b : Fin 32) (n : Fin 576) (k : Fin 3840) (r : Fin 18432)
    (hr : r.val = b.val * 576 + n.val) :
    shapeCast ⟨2, ![18432, 3840]⟩ X h2 (ix2 r k) = shapeCast ⟨3, ![32, 576, 3840]⟩ X h3 (ix3 b n k) := by
  refine shapeCast_apply X h2 (ix2 r k) (Shape.reshapeEquiv h3 (ix3 b n k)) ?_
  rw [Shape.rowMajor_reshapeEquiv, Shape.rowMajor_val_two, Shape.rowMajor_val_three]
  show (b.val * 576 + n.val) * 3840 + k.val = r.val * 3840 + k.val
  rw [hr]

section
open Cert.KernelIdeal Cert.KernelIdeal.Gen Cert.KernelIdeal.Hand

variable (m : (ℓ : Loc Cert.KernelIdeal.nD Cert.KernelIdeal.τ Cert.KernelIdeal.sig) → Buf (Elt Ideal) ℓ)
  (ρ : Dev Cert.KernelIdeal.nD → PrngReg)

/-- The patch tensor the kernel program's host lines build is the reference's patch stage of the same image: the two
    programs spell the same operations. -/
theorem patch_tensor_same (c : Dev Cert.KernelIdeal.nD) :
    (atEntry m c main_v10 : S32x24x24x15x16x16.Idx → Elt Ideal .f32)
      = Cert.ReferenceIdeal.Read.val_main_v10 (F := Ideal) (m ((c : Thread nD τ).loc main_arg0)) := by
  rw [entry_open]
  simp only [hostOps0_1, hostOps0_2, hostOps0_3, hostOps0_4, hostOps0_5, hostOps0_6, hostOps0_7, hostOps0_8, List.cons_append,
    List.nil_append]
  after_results
  unfold Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_call0_v0
    Cert.ReferenceIdeal.Read.val_main_call1_v0 Cert.ReferenceIdeal.Read.val_main_call2_v0 Cert.ReferenceIdeal.Read.val_main_call3_v0
    Cert.ReferenceIdeal.Read.val_main_c Cert.ReferenceIdeal.Read.val_main_c_0 Cert.ReferenceIdeal.Read.val_main_c_1
    Cert.ReferenceIdeal.Read.val_main_c_2
  rfl

/-- What the kernel program's result buffer holds after its run. -/
abbrev kernelResult (c : Dev Cert.KernelIdeal.nD) : Buf (Elt Ideal) ((c.tc : Thread nD τ).loc main_v16) :=
  Pipeline.afterTail₀ cfgs (dats m) 0 (entry m) close c main_v16

/-- The kernel program's run with its result named: the frame run read at the result buffer and at the arguments. -/
theorem kernel_run : θ_run defs (onTc (τ := τ) (main (F := Ideal))) ⟨m, fun _ => 0, ρ⟩ (fun r => ∀ c : Dev nD,
      r.2.mem ((c.tc : Thread nD τ).loc main_v16) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v16 (Pipeline.mem_restRefs_of main_v16 (by decide) (by decide)),
     bypass_kept m h c main_arg0 (Pipeline.mem_restRefs_of main_arg0 (by decide) (by decide)) (by decide) (by decide) (entry_arg0 m c),
     ((h c).1 1).trans ((((dats m 0 c).arrAt_in 1 rfl _).trans (arrays_at m c 1)).trans (entry_arg1 m c)),
     bypass_kept m h c main_arg2 (Pipeline.mem_restRefs_of main_arg2 (by decide) (by decide)) (by decide) (by decide) (entry_arg2 m c),
     bypass_kept m h c main_arg3 (Pipeline.mem_restRefs_of main_arg3 (by decide) (by decide)) (by decide) (by decide) (entry_arg3 m c),
     bypass_kept m h c main_arg4 (Pipeline.mem_restRefs_of main_arg4 (by decide) (by decide)) (by decide) (by decide) (entry_arg4 m c)⟩)
    (runs m ρ)

/-- The reference's result stage, of the kernel program's launch contents, is what the kernel program's result buffer
    ends holding: at (b, n, ·) both are the specification's row of patch row (b, n). -/
theorem reference_is_kernel (c : Dev Cert.KernelIdeal.nD) :
    Cert.ReferenceIdeal.Read.val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = kernelResult m c := by
  funext i
  obtain ⟨b, n, e, rfl⟩ : ∃ (b : Fin 32) (n : Fin 576) (e : Fin 768), i = ix3 b n e := ⟨i 0, i 1, i 2, eq_ix3 i⟩
  have hlt : b.val * 576 + n.val < 18432 := by have := b.isLt; have := n.isLt; omega
  refine (Cert.RefRow.ref_row _ _ _ _ _ b n e).trans ?_
  refine Eq.trans ?_ (result_value m c b n e ⟨b.val * 576 + n.val, hlt⟩ rfl).symm
  refine outRow_congr (funext fun k => ?_) rfl rfl rfl rfl rfl
  unfold Cert.ReferenceIdeal.Read.val_main_v11
  rw [patch_tensor_same m c]
  exact (rows_of_batches _ _ _ b n k ⟨b.val * 576 + n.val, hlt⟩ rfl).symm

end

end Cert.Bridge

end
-- ==== Proof.lean ====
/-
  The certificate of the patch-projection LayerNorm kernel against its reference.
  The kernel program shifts the image four ways, concatenates, cuts it into patches on the host, and then runs ONE
  fused region over 48 blocks of 384 patch rows: a matrix product with the weights, the bias, and a LayerNorm of each
  projected row; a last host line reshapes the rows into batches.  The reference does all of it on the host.
  Frames: the kernel program's (as printed and idealized) from the pipeline's launch theorem for a region between host
  lines, the body run on whole buffers; the reference's from its run read back.  The idealization rewrote nothing.
  Values: at the exact instance both programs apply the same row function to the same patch rows (Proof/Spec.lean,
  Proof/KI/Value.lean, Proof/RefRow.lean, Proof/Bridge.lean).
-/
import proofs.«165786_j11519102287954_1_alg».proof.Defs
import proofs.«165786_j11519102287954_1_alg».proof.Proof.Gen.Kernel
import proofs.«165786_j11519102287954_1_alg».proof.Proof.Gen.KernelIdeal
import proofs.«165786_j11519102287954_1_alg».proof.Proof.Gen.ReferenceIdeal
import proofs.«165786_j11519102287954_1_alg».proof.Proof.Gen.Pre_finite_inputs
import proofs.«165786_j11519102287954_1_alg».proof.Proof.Gen.ReferenceIdeal.Run
import proofs.«165786_j11519102287954_1_alg».proof.Proof.Gen.ReferenceIdeal.Read
import proofs.«165786_j11519102287954_1_alg».proof.Proof.K.Run
import proofs.«165786_j11519102287954_1_alg».proof.Proof.KI.Run
import proofs.«165786_j11519102287954_1_alg».proof.Proof.Bridge
import Idealize.ShloMosaic.Adequacy
import Idealize.ShloMosaic.Init

noncomputable section

namespace Cert.Proof

open Idealize.ShloMosaic Idealize.SL.Sem

/-- The kernel program as printed runs to the end and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, read back, with the result dropped. -/
theorem frame_r : Cert.frame_ReferenceIdeal := fun m ρ _ =>
  (θ_run Cert.ReferenceIdeal.defs _ _).mono (fun _ h c => (h c).2) (Cert.ReferenceIdeal.Value.run (F := Ideal) m ρ)

/-- From memories that agree on the arguments the two idealized programs end with the same result: the reference's
    result stage of the shared arguments is what the kernel program's result buffer holds. -/
theorem algebraic : Cert.algebraic_KernelIdeal_ReferenceIdeal := by
  intro m ρ m' ρ' _ hagree
  refine ⟨fun c => Cert.Bridge.kernelResult m c, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2.1, (hagree c).2.2.2.1, (hagree c).2.2.2.2]
  exact Cert.Bridge.reference_is_kernel m c

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
